-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S3200x128 : Shape := ⟨2, ![3200, 128]⟩
abbrev S3200x1 : Shape := ⟨2, ![3200, 1]⟩
abbrev S3200 : Shape := ⟨1, ![3200]⟩
abbrev S1x1 : Shape := ⟨2, ![1, 1]⟩
abbrev S5000x128 : Shape := ⟨2, ![5000, 128]⟩

abbrev nBuf : Space → Nat
  | .hbm => 85
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x3, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x3, .f32⟩
  | .hbm, ⟨53, _⟩ => ⟨S800000x3, .f32⟩
  | .hbm, ⟨54, _⟩ => ⟨S800000x3, .f32⟩
  | .hbm, ⟨55, _⟩ => ⟨S_, .f32⟩
  | .hbm, ⟨56, _⟩ => ⟨S800000, .f32⟩
  | .hbm, ⟨57, _⟩ => ⟨S800000x1, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S128, .f32⟩
  | .hbm, ⟨63, _⟩ => ⟨S800000x128, .f32⟩
  | .hbm, ⟨64, _⟩ => ⟨S800000x1, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S128x128, .f32⟩
  | .hbm, ⟨70, _⟩ => ⟨S128x128, .f32⟩
  | .hbm, ⟨71, _⟩ => ⟨S50000x128, .f32⟩
  | .hbm, ⟨72, _⟩ => ⟨S800000x1, .f32⟩
  | .hbm, ⟨73, _⟩ => ⟨S_, .f32⟩
  | .hbm, ⟨74, _⟩ => ⟨S800000x1, .f32⟩
  | .hbm, ⟨75, _⟩ => ⟨S800000x1, .f32⟩
  | .hbm, ⟨76, _⟩ => ⟨S800000x3, .f32⟩
  | .hbm, ⟨77, _⟩ => ⟨S800000x3, .f32⟩
  | .hbm, ⟨78, _⟩ => ⟨S800000x3, .f32⟩
  | .hbm, ⟨79, _⟩ => ⟨S800000x3, .f32⟩
  | .hbm, ⟨80, _⟩ => ⟨S_, .f32⟩
  | .hbm, ⟨81, _⟩ => ⟨S50000x3, .f32⟩
  | .hbm, ⟨82, _⟩ => ⟨S800000x1, .i32⟩
  | .hbm, ⟨83, _⟩ => ⟨S50000x3, .f32⟩
  | .hbm, ⟨84, _⟩ => ⟨S50000x3, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x1, .f32⟩
  | .local _ .vmem, ⟨5, _⟩ => ⟨S3200x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S1, .f32⟩
  | .local _ .vmem, ⟨14, _⟩ => ⟨S3200x128, .f32⟩
  | .local _ .vmem, ⟨15, _⟩ => ⟨S3200x128, .f32⟩
  | .local _ .vmem, ⟨16, _⟩ => ⟨S3200x1, .f32⟩
  | .local _ .vmem, ⟨17, _⟩ => ⟨S3200x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3200x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S1x128_S128 : S1x128.ShapeCasts S128
  shapeCasts_S128x1_S128 : S128x1.ShapeCasts S128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S3200x1_S3200x128 : S3200x1.Broadcasts S3200x128
  broadcasts_S1x128_S3200x128 : S1x128.Broadcasts S3200x128
  reduces_S3200x128_S3200 : S3200x128.Reduces [1] S3200
  shapeCasts_S3200_S3200x1 : S3200.ShapeCasts S3200x1
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S800000x1.size a
  hwx0_2 : ∀ i : grid0.Coords, EltTy.bits .f32 = 32 ∨ (Rect.block (s := S800000x1) S3200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x128.size a ≤ S800000x128.size a
  hwx0_11 : ∀ i : grid0.Coords, EltTy.bits .f32 = 32 ∨ (Rect.block (s := S800000x128) S3200x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x1.size a ≤ S800000x1.size a
  hwx0_12 : ∀ i : grid0.Coords, EltTy.bits .f32 = 32 ∨ (Rect.block (s := S800000x1) S3200x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41_0) S3200x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v41_1) S3200x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S800000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x257, .f32⟩
  | 59 => ⟨S800000x128, .f32⟩
  | 60 => ⟨S1x128, .f32⟩
  | 61 => ⟨S800000x128, .f32⟩
  | 62 => ⟨S800000x128, .f32⟩
  | 63 => ⟨S800000x128, .f32⟩
  | 64 => ⟨S800000x128, .f32⟩
  | 65 => ⟨S_, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S800000x128, .f32⟩
  | 72 => ⟨S800000x128, .f32⟩
  | 73 => ⟨S1x128, .f32⟩
  | 74 => ⟨S800000x128, .f32⟩
  | 75 => ⟨S800000x128, .f32⟩
  | 76 => ⟨S800000x128, .f32⟩
  | 77 => ⟨S800000x128, .f32⟩
  | 78 => ⟨S_, .f32⟩
  | 79 => ⟨S800000x128, .f32⟩
  | 80 => ⟨S800000x128, .f32⟩
  | 81 => ⟨S_, .f32⟩
  | 82 => ⟨S800000x128, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x256, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S50000x128, .f32⟩
  | 108 => ⟨S800000x1, .f32⟩
  | 109 => ⟨S1x1, .f32⟩
  | 110 => ⟨S800000x1, .f32⟩
  | 111 => ⟨S800000x1, .f32⟩
  | 112 => ⟨S800000x1, .f32⟩
  | 113 => ⟨S800000x1, .f32⟩
  | 114 => ⟨S_, .f32⟩
  | 115 => ⟨S800000x1, .f32⟩
  | 116 => ⟨S800000x1, .f32⟩
  | 117 => ⟨S_, .f32⟩
  | 118 => ⟨S800000x1, .f32⟩
  | 119 => ⟨S800000x1, .f32⟩
  | 120 => ⟨S800000x1, .f32⟩
  | 121 => ⟨S800000x3, .f32⟩
  | 122 => ⟨S_, .f32⟩
  | 123 => ⟨S800000, .f32⟩
  | 124 => ⟨S800000x1, .f32⟩
  | 125 => ⟨S800000x1, .f32⟩
  | 126 => ⟨S_, .f32⟩
  | 127 => ⟨S800000x1, .f32⟩
  | _ => ⟨S50000x128, .f32⟩

abbrev hbmTy0_1 (i : Nat) : BufTy := match i % 128 with
  | 0 => ⟨S800000x1, .f32⟩
  | 1 => ⟨S800000x3, .f32⟩
  | 2 => ⟨S800000x3, .f32⟩
  | 3 => ⟨S800000x3, .f32⟩
  | 4 => ⟨S800000x3, .f32⟩
  | 5 => ⟨S_, .f32⟩
  | 6 => ⟨S50000x3, .f32⟩
  | 7 => ⟨S800000x1, .i32⟩
  | 8 => ⟨S50000x3, .f32⟩
  | 9 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v46 : Ref sig .tc := ⟨.hbm, 84, rfl⟩
abbrev main_cst_7 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v65 : Ref sig .tc := ⟨.hbm, 120, rfl⟩
abbrev main_call4_v0 : Ref sig .tc := ⟨.hbm, 121, rfl⟩
abbrev main_call4_cst : Ref sig .tc := ⟨.hbm, 122, rfl⟩
abbrev main_call4_v1 : Ref sig .tc := ⟨.hbm, 123, rfl⟩
abbrev main_call4_v2 : Ref sig .tc := ⟨.hbm, 124, rfl⟩
abbrev main_v66 : Ref sig .tc := ⟨.hbm, 125, rfl⟩
abbrev main_cst_8 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_9 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/-
  The mathematics both programs compute, over the extended reals, written once over plain index types.

  An edge e of the graph carries the gathered node features xr(e,·), xc(e,·) (128 each) and the squared
  distance dij(e).  The edge network is
      h(e,k) = Σ_l xr(e,l)·Wa(l,k) + Σ_l xc(e,l)·Wb(l,k) + dij(e)·wc(k) + b1(k)
      M(e,j) = silu( Σ_k silu(h(e,k))·W2(k,j) + b2(j) )
      w(e)   = silu( Σ_j M(e,j)·cw(j) + cb )
  with silu(t) = t·σ(t), σ the logistic function.  A node n with features x(n,·) and aggregate agg(n,·) is updated to
      out(n,j) = x(n,j) + ( Σ_k silu( Σ_l x(n,l)·Na(l,k) + Σ_l agg(n,l)·Nb(l,k) + nb1(k) )·N2(k,j) + nb2(j) ).
  The three weight matrices of the first edge layer are the row blocks [0,128), [128,256) and the row 256 of one
  257×128 matrix; the two of the first node layer the row blocks [0,128), [128,256) of one 256×128 matrix: a sum
  over 257 (or 256) terms of a row-wise concatenation against the whole matrix is the sum of the blocks' sums,
  by associativity and commutativity of addition alone (no finiteness is used).
-/
import Idealize.ShloMosaic.Lib.ValueIdx
import Idealize.ShloMosaic.PureOps.Ideal.Laws

noncomputable section

namespace Cert.Spec

open Idealize.ShloMosaic Idealize.ShloMosaic.ValueIdx

/-- A rank-2 array of extended reals over literal extents. -/
abbrev Arr (n0 n1 : Nat) := (⟨2, ![n0, n1]⟩ : Shape).Idx → EReal
/-- A rank-1 array of extended reals over a literal extent. -/
abbrev Vec1 (n : Nat) := (⟨1, ![n]⟩ : Shape).Idx → EReal

/-- silu(t) = t · σ(t). -/
def silu (t : EReal) : EReal := t * Ideal.logistic t

/-- The first edge layer before its activation, at edge `e` and hidden unit `k`. -/
def edgeH (xr xc : Arr 800000 128) (dij : Arr 800000 1) (wa wb : Arr 128 128) (wc b1 : Vec1 128)
    (e : Fin 800000) (k : Fin 128) : EReal :=
  (((∑ l : Fin 128, xr (ix2 e l) * wa (ix2 l k)) + (∑ l : Fin 128, xc (ix2 e l) * wb (ix2 l k)))
    + dij (ix2 e (0 : Fin 1)) * wc (ix1 k)) + b1 (ix1 k)

/-- The edge message M(e, j). -/
def edgeM (xr xc : Arr 800000 128) (dij : Arr 800000 1) (wa wb : Arr 128 128) (wc b1 : Vec1 128)
    (w2 : Arr 128 128) (b2 : Vec1 128) (e : Fin 800000) (j : Fin 128) : EReal :=
  silu ((∑ k : Fin 128, silu (edgeH xr xc dij wa wb wc b1 e k) * w2 (ix2 k j)) + b2 (ix1 j))

/-- The edge messages as an array. -/
def edgeMArr (xr xc : Arr 800000 128) (dij : Arr 800000 1) (wa wb : Arr 128 128) (wc b1 : Vec1 128)
    (w2 : Arr 128 128) (b2 : Vec1 128) : Arr 800000 128 :=
  fun i => edgeM xr xc dij wa wb wc b1 w2 b2 (i 0) (i 1)

/-- The edge weight w(e) from the messages. -/
def edgeW (M : Arr 800000 128) (cw : Vec1 128) (cb : Vec1 1) (e : Fin 800000) : EReal :=
  silu ((∑ j : Fin 128, M (ix2 e j) * cw (ix1 j)) + cb (ix1 (0 : Fin 1)))

/-- The edge weights as an [800000, 1] array. -/
def edgeWArr (M : Arr 800000 128) (cw : Vec1 128) (cb : Vec1 1) : Arr 800000 1 :=
  fun i => edgeW M cw cb (i 0)

/-- The first node layer before its activation. -/
def nodeH (x agg : Arr 50000 128) (na nb : Arr 128 128) (nb1 : Vec1 128) (n : Fin 50000) (k : Fin 128) : EReal :=
  ((∑ l : Fin 128, x (ix2 n l) * na (ix2 l k)) + (∑ l : Fin 128, agg (ix2 n l) * nb (ix2 l k))) + nb1 (ix1 k)

/-- The updated node features out(n, j). -/
def nodeOut (x agg : Arr 50000 128) (na nb : Arr 128 128) (nb1 : Vec1 128) (n2 : Arr 128 128) (nb2 : Vec1 128)
    (n : Fin 50000) (j : Fin 128) : EReal :=
  x (ix2 n j) + ((∑ k : Fin 128, silu (nodeH x agg na nb nb1 n k) * n2 (ix2 k j)) + nb2 (ix1 j))

/-- The updated node features as an array. -/
def nodeOutArr (x agg : Arr 50000 128) (na nb : Arr 128 128) (nb1 : Vec1 128) (n2 : Arr 128 128) (nb2 : Vec1 128) :
    Arr 50000 128 :=
  fun i => nodeOut x agg na nb nb1 n2 nb2 (i 0) (i 1)

/-- Rows [0, 128) of a 257-row matrix. -/
def rowsA (w : Arr 257 128) : Arr 128 128 :=
  fun i => w (ix2 (⟨(i 0).val, by have := idx2_lt0 i; omega⟩ : Fin 257) (⟨(i 1).val, idx2_lt1 i⟩ : Fin 128))
/-- Rows [128, 256) of a 257-row matrix. -/
def rowsB (w : Arr 257 128) : Arr 128 128 :=
  fun i => w (ix2 (⟨128 + (i 0).val, by have := idx2_lt0 i; omega⟩ : Fin 257) (⟨(i 1).val, idx2_lt1 i⟩ : Fin 128))
/-- Row 256 of a 257-row matrix. -/
def rowC (w : Arr 257 128) : Vec1 128 :=
  fun i => w (ix2 (⟨256, by omega⟩ : Fin 257) (⟨(i 0).val, (i 0).isLt⟩ : Fin 128))
/-- Rows [0, 128) of a 256-row matrix. -/
def nrowsA (w : Arr 256 128) : Arr 128 128 :=
  fun i => w (ix2 (⟨(i 0).val, by have := idx2_lt0 i; omega⟩ : Fin 256) (⟨(i 1).val, idx2_lt1 i⟩ : Fin 128))
/-- Rows [128, 256) of a 256-row matrix. -/
def nrowsB (w : Arr 256 128) : Arr 128 128 :=
  fun i => w (ix2 (⟨128 + (i 0).val, by have := idx2_lt0 i; omega⟩ : Fin 256) (⟨(i 1).val, idx2_lt1 i⟩ : Fin 128))
/-- The one column of a [128, 1] matrix as a vector. -/
def col0 (w : Arr 128 1) : Vec1 128 :=
  fun i => w (ix2 (⟨(i 0).val, (i 0).isLt⟩ : Fin 128) (0 : Fin 1))

/-- A sum over `a + b` terms is the sum of its first `a` and its last `b` terms. -/
theorem sum_split (a b : Nat) (f : Fin (a + b) → EReal) :
    (∑ k : Fin (a + b), f k) = (∑ k : Fin a, f (Fin.castAdd b k)) + (∑ k : Fin b, f (Fin.natAdd a k)) :=
  Fin.sum_univ_add f

end Cert.Spec

end
-- ==== Proof.R0.lean ====
/-
  What the edge-network region leaves in its two result arrays, over the extended reals.

  The region runs over 250 grid points; point t handles the 3200 edges [3200·t, 3200·t + 3200).  Its body reads the
  point's blocks of xr, xc (3200×128) and dij (3200×1) and the whole weight arrays, and stores the message block
  M(e, ·) and the weight block w(e) of those edges.  Each stored block is the block of ONE whole-array function of
  the region's input arrays (Cert.Spec.edgeMArr, Cert.Spec.edgeWArr): a row of the block depends only on the same
  row of xr, xc, dij, and the row blocks tile the edge axis, so the arrays end holding those functions.
-/
import proofs.«110710_j11742440587289_1_alg».proof.Proof.Gen.KernelIdeal.Frame
import proofs.«110710_j11742440587289_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## A 3200×128 by 128×128 product read at an index -/

/-- The operand indices of the product at output index i and contraction index q, coordinate by coordinate. -/
theorem dot_lhs_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem dot_lhs_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem dot_rhs_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem dot_rhs_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The product into the zero block, at row p and column q, is the sum over the 128 contracted coordinates. -/
theorem mm_apply {φ₁ φ₂ : FTy} (a : FVec Ideal S3200x128 φ₁) (b : FVec Ideal S128x128 φ₂) (p : Fin 3200) (q : Fin 128) :
    matmul dot_S3200x128_S128x128_S3200x128_1_0_0_1_n_n none a b (constant S3200x128 .f32 0x00000000#32) (ix2 p q)
      = ∑ k : Fin 128, a (ix2 p k) * b (ix2 k q) := by
  simp only [matmul]
  rw [Ideal.matmul_constant_zero_apply, ← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 p q) ((ValueIdx.contrEquiv1 dot_S3200x128_S128x128_S3200x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S3200x128_S128x128_S3200x128_1_0_0_1_n_n.rhsIdx (ix2 p q) ((ValueIdx.contrEquiv1 dot_S3200x128_S128x128_S3200x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-! ## Layout operations read at an index -/

/-- A one-column array broadcast along the columns reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to one column reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 128 lanes of a 3200×128 block, at row r. -/
theorem lanesum_apply (v : FVec Ideal S3200x128 .f32) (r : Fin 3200) :
    multiReduction .add [1] S3200 v 0x00000000#32 reduces_S3200x128_S3200 (.inl rfl) rfl (ix1 r)
      = ∑ k : Fin 128, v (ix2 r k) := by
  refine (Ideal.multiReduction_add_single v 0x00000000#32 reduces_S3200x128_S3200 (.inl rfl) rfl (ix1 r)).trans ?_
  show (∑ k : Fin 128, v (reduces_S3200x128_S3200.lift (ix1 r) k)) = _
  refine Finset.sum_congr rfl fun k _ => congrArg v (funext fun a => Fin.ext ?_)
  match a with
  | ⟨0, _⟩ => rfl
  | ⟨1, _⟩ => rfl

/-! ## The stored blocks, entry by entry -/

/-- The first layer before its activation, on a block of 3200 edges: the body's operations in its order. -/
def blkH (x0 x1 : Vec Ideal S3200x128 .f32) (x2 : Vec Ideal S3200x1 .f32) (x3 x4 : Vec Ideal S128x128 .f32)
    (x5 x6 : Vec Ideal S128 .f32) : FVec Ideal S3200x128 .f32 :=
  addf (addf (addf
      (matmul dot_S3200x128_S128x128_S3200x128_1_0_0_1_n_n none
        (truncf .bf16 (shapeCast S3200x128 x0 shapeCasts_S3200x128_S3200x128) bitsLt_bf16_f32)
        (truncf .bf16 (shapeCast S128x128 x3 shapeCasts_S128x128_S128x128) bitsLt_bf16_f32)
        (constant S3200x128 .f32 0x00000000#32))
      (matmul dot_S3200x128_S128x128_S3200x128_1_0_0_1_n_n none
        (truncf .bf16 (shapeCast S3200x128 x1 shapeCasts_S3200x128_S3200x128) bitsLt_bf16_f32)
        (truncf .bf16 (shapeCast S128x128 x4 shapeCasts_S128x128_S128x128) bitsLt_bf16_f32)
        (constant S3200x128 .f32 0x00000000#32)))
      (mulf (broadcastTo S3200x128 (shapeCast S3200x1 x2 shapeCasts_S3200x1_S3200x1) broadcasts_S3200x1_S3200x128)
        (broadcastTo S3200x128 (shapeCast S1x128 (shapeCast S128 x5 shapeCasts_S128_S128) shapeCasts_S128_S1x128) broadcasts_S1x128_S3200x128)))
    (broadcastTo S3200x128 (shapeCast S1x128 x6 shapeCasts_S128_S1x128) broadcasts_S1x128_S3200x128)

/-- The second layer on a block, from the first layer's pre-activations. -/
def blkM (h : FVec Ideal S3200x128 .f32) (x7 : Vec Ideal S128x128 .f32) (x8 : Vec Ideal S128 .f32) : FVec Ideal S3200x128 .f32 :=
  mulf
    (addf (matmul dot_S3200x128_S128x128_S3200x128_1_0_0_1_n_n none (truncf .bf16 (mulf h (logistic h)) bitsLt_bf16_f32)
        (truncf .bf16 x7 bitsLt_bf16_f32) (constant S3200x128 .f32 0x00000000#32))
      (broadcastTo S3200x128 (shapeCast S1x128 x8 shapeCasts_S128_S1x128) broadcasts_S1x128_S3200x128))
    (logistic
      (addf (matmul dot_S3200x128_S128x128_S3200x128_1_0_0_1_n_n none (truncf .bf16 (mulf h (logistic h)) bitsLt_bf16_f32)
          (truncf .bf16 x7 bitsLt_bf16_f32) (constant S3200x128 .f32 0x00000000#32))
        (broadcastTo S3200x128 (shapeCast S1x128 x8 shapeCasts_S128_S1x128) broadcasts_S1x128_S3200x128)))

/-- The stored message block is the second layer of the first. -/
theorem pay2_eq (x0 x1 : Vec Ideal S3200x128 .f32) (x2 : Vec Ideal S3200x1 .f32) (x3 x4 : Vec Ideal S128x128 .f32)
    (x5 x6 : Vec Ideal S128 .f32) (x7 : Vec Ideal S128x128 .f32) (x8 : Vec Ideal S128 .f32) :
    k0_pay2 x0 x1 x2 x3 x4 x5 x6 x7 x8 = blkM (blkH x0 x1 x2 x3 x4 x5 x6) x7 x8 := rfl

/-- A row vector of 128 lifted to one row and broadcast down the rows reads, at (p, k), the vector at k. -/
theorem rowvec_apply (v : Vec Ideal S128 .f32) (p : Fin 3200) (k : Fin 128) :
    broadcastTo S3200x128 (shapeCast S1x128 v shapeCasts_S128_S1x128) broadcasts_S1x128_S3200x128 (ix2 p k) = v (ix1 k) :=
  (broadcastTo_1b_ab_apply _ broadcasts_S1x128_S3200x128 p k).trans (shapeCast_a_1a_apply v shapeCasts_S128_S1x128 0 k)

/-- The first layer's pre-activation at edge p of the block and hidden unit k. -/
theorem blkH_apply (x0 x1 : Vec Ideal S3200x128 .f32) (x2 : Vec Ideal S3200x1 .f32) (x3 x4 : Vec Ideal S128x128 .f32)
    (x5 x6 : Vec Ideal S128 .f32) (p : Fin 3200) (k : Fin 128) :
    blkH x0 x1 x2 x3 x4 x5 x6 (ix2 p k)
      = (((∑ l : Fin 128, x0 (ix2 p l) * x3 (ix2 l k)) + (∑ l : Fin 128, x1 (ix2 p l) * x4 (ix2 l k)))
          + x2 (ix2 p (0 : Fin 1)) * x5 (ix1 k)) + x6 (ix1 k) := by
  unfold blkH
  rw [shapeCast_self, shapeCast_self, shapeCast_self, shapeCast_self, shapeCast_self, shapeCast_self]
  rw [addf_apply, addf_apply, addf_apply, mulf_apply, mm_apply, mm_apply, rowvec_apply, rowvec_apply,
    broadcastTo_a1_ab_apply]
  rfl

/-- The activation t ↦ t · σ(t) of a block, entry by entry. -/
theorem silu_apply (v : FVec Ideal S3200x128 .f32) (i : S3200x128.Idx) :
    mulf v (logistic v) i = Cert.Spec.silu (v i) := rfl

/-- The message block at edge p of the block and unit q, from the first layer's pre-activations. -/
theorem blkM_apply (h : FVec Ideal S3200x128 .f32) (x7 : Vec Ideal S128x128 .f32) (x8 : Vec Ideal S128 .f32)
    (p : Fin 3200) (q : Fin 128) :
    blkM h x7 x8 (ix2 p q)
      = Cert.Spec.silu ((∑ k : Fin 128, Cert.Spec.silu (h (ix2 p k)) * x7 (ix2 k q)) + x8 (ix1 q)) := by
  unfold blkM
  refine (silu_apply _ _).trans (congrArg Cert.Spec.silu ?_)
  rw [addf_apply, mm_apply, rowvec_apply]
  rfl

/-- The stored message block at (p, q), from the loaded blocks. -/
theorem pay2_apply (x0 x1 : Vec Ideal S3200x128 .f32) (x2 : Vec Ideal S3200x1 .f32) (x3 x4 : Vec Ideal S128x128 .f32)
    (x5 x6 : Vec Ideal S128 .f32) (x7 : Vec Ideal S128x128 .f32) (x8 : Vec Ideal S128 .f32) (p : Fin 3200) (q : Fin 128) :
    k0_pay2 x0 x1 x2 x3 x4 x5 x6 x7 x8 (ix2 p q)
      = Cert.Spec.silu ((∑ k : Fin 128, Cert.Spec.silu
            ((((∑ l : Fin 128, x0 (ix2 p l) * x3 (ix2 l k)) + (∑ l : Fin 128, x1 (ix2 p l) * x4 (ix2 l k)))
              + x2 (ix2 p (0 : Fin 1)) * x5 (ix1 k)) + x6 (ix1 k)) * x7 (ix2 k q)) + x8 (ix1 q)) := by
  rw [pay2_eq, blkM_apply]
  refine congrArg Cert.Spec.silu (congrArg (· + x8 (ix1 q)) (Finset.sum_congr rfl fun k _ => ?_))
  rw [blkH_apply]

/-- The stored weight block at edge p of the block, from the message block. -/
theorem pay1_apply (M : FVec Ideal S3200x128 .f32) (x9 : Vec Ideal S128 .f32) (x10 : Vec Ideal S1 .f32)
    (p : Fin 3200) (u : Fin 1) :
    k0_pay1 M x9 x10 (ix2 p u)
      = Cert.Spec.silu ((∑ j : Fin 128, M (ix2 p j) * x9 (ix1 j)) + x10 (ix1 (0 : Fin 1))) := by
  obtain rfl : u = 0 := Fin.fin_one_eq_zero u
  unfold k0_pay1
  show Cert.Spec.silu (_ + _) = _
  refine congrArg Cert.Spec.silu (congrArg₂ (· + ·) ?_ ?_)
  · refine (shapeCast_a_a1_apply _ shapeCasts_S3200_S3200x1 p 0).trans ?_
    refine (lanesum_apply _ p).trans (Finset.sum_congr rfl fun j _ => ?_)
    rw [mulf_apply, shapeCast_self, rowvec_apply]
  · exact (broadcastTo_1b_ab_apply _ broadcasts_S1x1_S3200x1 p 0).trans (shapeCast_a_1a_apply x10 shapeCasts_S1_S1x1 0 0)

/-! ## The region's blocks -/

theorem hz2 : (![0, 0] : Fin 2 → Nat) = fun _ => 0 := funext fun a => by fin_cases a <;> rfl
theorem hz1 : (![0] : Fin 1 → Nat) = fun _ => 0 := funext fun a => by fin_cases a <;> rfl

/-- The windows' block indices over the grid: the edge-blocked windows sit at block (t, 0), the weight windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = 0
    ∧ win0_10.index t (0 : Fin 1) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The grid has 250 points. -/
theorem N250 : cfg0.N = 250 := N_0

/-- Row p of point t's block is row 3200·t + p of the array. -/
theorem row_lt (t : Fin cfg0.N) (p : Fin 3200) : t.val * 3200 + p.val < 800000 := by
  have hN : cfg0.N = 250 := N250
  have := t.isLt; have := p.isLt; omega

/-- The three edge-blocked inputs: row p of point t's block is row 3200·t + p of the array. -/
theorem blk0_row (c : Dev nD) (t : Fin cfg0.N) (p : Fin 3200) (l : Fin 128) (e : Fin 800000) (he : e.val = t.val * 3200 + p.val) :
    iblk0 V c 0 t (ix2 p l) = V c main_v10 (ix2 e l) := by
  unfold iblk0
  rw [View.read_apply]
  show V c main_v10 _ = V c main_v10 _
  refine congrArg (V c main_v10) (funext fun a => Fin.ext ?_)
  obtain ⟨h0, h1, -⟩ := idx_facts t
  match a with
  | ⟨0, _⟩ => show win0_0.index t (0 : Fin 2) * 3200 + 1 * p.val = e.val; rw [h0, he]; omega
  | ⟨1, _⟩ => show win0_0.index t (1 : Fin 2) * 128 + 1 * l.val = l.val; rw [h1]; omega

theorem blk1_row (c : Dev nD) (t : Fin cfg0.N) (p : Fin 3200) (l : Fin 128) (e : Fin 800000) (he : e.val = t.val * 3200 + p.val) :
    iblk0 V c 1 t (ix2 p l) = V c main_v17 (ix2 e l) := by
  unfold iblk0
  rw [View.read_apply]
  show V c main_v17 _ = V c main_v17 _
  refine congrArg (V c main_v17) (funext fun a => Fin.ext ?_)
  obtain ⟨-, -, h0, h1, -⟩ := idx_facts t
  match a with
  | ⟨0, _⟩ => show win0_1.index t (0 : Fin 2) * 3200 + 1 * p.val = e.val; rw [h0, he]; omega
  | ⟨1, _⟩ => show win0_1.index t (1 : Fin 2) * 128 + 1 * l.val = l.val; rw [h1]; omega

theorem blk2_row (c : Dev nD) (t : Fin cfg0.N) (p : Fin 3200) (e : Fin 800000) (he : e.val = t.val * 3200 + p.val) :
    iblk0 V c 2 t (ix2 p (0 : Fin 1)) = V c main_v35 (ix2 e (0 : Fin 1)) := by
  unfold iblk0
  rw [View.read_apply]
  show V c main_v35 _ = V c main_v35 _
  refine congrArg (V c main_v35) (funext fun a => Fin.ext ?_)
  obtain ⟨-, -, -, -, h0, h1, -⟩ := idx_facts t
  match a with
  | ⟨0, _⟩ => show win0_2.index t (0 : Fin 2) * 3200 + 1 * p.val = e.val; rw [h0, he]; omega
  | ⟨1, _⟩ => show win0_2.index t (1 : Fin 2) * 1 + 1 * 0 = 0; rw [h1]

/-- The weight windows hold their whole arrays at every point. -/
theorem blk3_eq (c : Dev nD) (t : Fin cfg0.N) : (iblk0 V c 3 t : Vec Ideal S128x128 .f32) = V c main_v36 := by
  unfold iblk0
  funext y
  rw [View.read_apply]
  show V c main_v36 _ = V c main_v36 _
  refine congrArg (V c main_v36) (funext fun a => Fin.ext ?_)
  obtain ⟨-, -, -, -, -, -, h0, h1, -⟩ := idx_facts t
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

theorem blk4_eq (c : Dev nD) (t : Fin cfg0.N) : (iblk0 V c 4 t : Vec Ideal S128x128 .f32) = V c main_v37 := by
  unfold iblk0
  funext y
  rw [View.read_apply]
  show V c main_v37 _ = V c main_v37 _
  refine congrArg (V c main_v37) (funext fun a => Fin.ext ?_)
  obtain ⟨-, -, -, -, -, -, -, -, h0, h1, -⟩ := idx_facts t
  match a with
  | ⟨0, _⟩ => show win0_4.index t (0 : Fin 2) * 128 + 1 * (y 0).val = (y 0).val; rw [h0]; omega
  | ⟨1, _⟩ => show win0_4.index t (1 : Fin 2) * 128 + 1 * (y 1).val = (y 1).val; rw [h1]; omega

theorem blk5_eq (c : Dev nD) (t : Fin cfg0.N) : (iblk0 V c 5 t : Vec Ideal S128 .f32) = V c main_v39 := by
  unfold iblk0
  funext y
  rw [View.read_apply]
  show V c main_v39 _ = V c main_v39 _
  refine congrArg (V c main_v39) (funext fun a => Fin.ext ?_)
  obtain ⟨-, -, -, -, -, -, -, -, -, -, h0, -⟩ := idx_facts t
  match a with
  | ⟨0, _⟩ => show win0_5.index t (0 : Fin 1) * 128 + 1 * (y 0).val = (y 0).val; rw [h0]; omega

theorem blk6_eq (c : Dev nD) (t : Fin cfg0.N) : (iblk0 V c 6 t : Vec Ideal S128 .f32) = V c main_arg4 := by
  unfold iblk0
  funext y
  rw [View.read_apply]
  show V c main_arg4 _ = V c main_arg4 _
  refine congrArg (V c main_arg4) (funext fun a => Fin.ext ?_)
  obtain ⟨-, -, -, -, -, -, -, -, -, -, -, h0, -⟩ := idx_facts t
  match a with
  | ⟨0, _⟩ => show win0_6.index t (0 : Fin 1) * 128 + 1 * (y 0).val = (y 0).val; rw [h0]; omega

theorem blk7_eq (c : Dev nD) (t : Fin cfg0.N) : (iblk0 V c 7 t : Vec Ideal S128x128 .f32) = V c main_arg5 := by
  unfold iblk0
  funext y
  rw [View.read_apply]
  show V c main_arg5 _ = V c main_arg5 _
  refine congrArg (V c main_arg5) (funext fun a => Fin.ext ?_)
  obtain ⟨-, -, -, -, -, -, -, -, -, -, -, -, h0, h1, -⟩ := idx_facts t
  match a with
  | ⟨0, _⟩ => show win0_7.index t (0 : Fin 2) * 128 + 1 * (y 0).val = (y 0).val; rw [h0]; omega
  | ⟨1, _⟩ => show win0_7.index t (1 : Fin 2) * 128 + 1 * (y 1).val = (y 1).val; rw [h1]; omega

theorem blk8_eq (c : Dev nD) (t : Fin cfg0.N) : (iblk0 V c 8 t : Vec Ideal S128 .f32) = V c main_arg6 := by
  unfold iblk0
  funext y
  rw [View.read_apply]
  show V c main_arg6 _ = V c main_arg6 _
  refine congrArg (V c main_arg6) (funext fun a => Fin.ext ?_)
  obtain ⟨-, -, -, -, -, -, -, -, -, -, -, -, -, -, h0, -⟩ := idx_facts t
  match a with
  | ⟨0, _⟩ => show win0_8.index t (0 : Fin 1) * 128 + 1 * (y 0).val = (y 0).val; rw [h0]; omega

theorem blk9_eq (c : Dev nD) (t : Fin cfg0.N) : (iblk0 V c 9 t : Vec Ideal S128 .f32) = V c main_v40 := by
  unfold iblk0
  funext y
  rw [View.read_apply]
  show V c main_v40 _ = V c main_v40 _
  refine congrArg (V c main_v40) (funext fun a => Fin.ext ?_)
  obtain ⟨-, -, -, -, -, -, -, -, -, -, -, -, -, -, -, h0, -⟩ := idx_facts t
  match a with
  | ⟨0, _⟩ => show win0_9.index t (0 : Fin 1) * 128 + 1 * (y 0).val = (y 0).val; rw [h0]; omega

theorem blk10_eq (c : Dev nD) (t : Fin cfg0.N) : (iblk0 V c 10 t : Vec Ideal S1 .f32) = V c main_arg12 := by
  unfold iblk0
  funext y
  rw [View.read_apply]
  show V c main_arg12 _ = V c main_arg12 _
  refine congrArg (V c main_arg12) (funext fun a => Fin.ext ?_)
  obtain ⟨-, -, -, -, -, -, -, -, -, -, -, -, -, -, -, -, h0, -⟩ := idx_facts t
  match a with
  | ⟨0, _⟩ => show win0_10.index t (0 : Fin 1) * 1 + 1 * (y 0).val = (y 0).val; rw [h0]; omega

/-- THE MESSAGE at row p of point t's block and unit q is M(e, q) of the whole arrays, e = 3200·t + p. -/
theorem msg_at (c : Dev nD) (t : Fin cfg0.N) (p : Fin 3200) (q : Fin 128) (e : Fin 800000) (he : e.val = t.val * 3200 + p.val) :
    k0_pay2 (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p q)
      = Cert.Spec.edgeMArr (V c main_v10) (V c main_v17) (V c main_v35) (V c main_v36) (V c main_v37) (V c main_v39)
          (V c main_arg4) (V c main_arg5) (V c main_arg6) (ix2 e q) := by
  refine (pay2_apply _ _ _ _ _ _ _ _ _ p q).trans ?_
  rw [blk3_eq, blk4_eq, blk5_eq, blk6_eq, blk7_eq, blk8_eq, blk2_row V c t p e he]
  simp only [blk0_row V c t p _ e he, blk1_row V c t p _ e he]
  rfl

/-- WHAT POINT t WRITES BACK to the message array is its block of M of the whole arrays. -/
theorem flushed11_eq (c : Dev nD) (t : Fin cfg0.N) :
    (dat0 V c).flushed 11 t = ((cfg0.win 11).blk t).view.read (Elt Ideal)
      (Cert.Spec.edgeMArr (V c main_v10) (V c main_v17) (V c main_v35) (V c main_v36) (V c main_v37) (V c main_v39)
          (V c main_arg4) (V c main_arg5) (V c main_arg6)) := by
  show (cfg0.win 11).cut (grid0.coords t) ((dat0 V c).after 11 t) = _
  rw [after0_11]
  unfold out0_11
  rw [View.canon_unit_zero hz2]
  simp only [View.ld_unit_zero (S := S3200x128) hz2, View.ld_unit_zero (S := S3200x1) hz2, View.ld_unit_zero (S := S128x128) hz2, View.ld_unit_zero (S := S128) hz1]
  funext j
  obtain ⟨p, q, rfl⟩ : ∃ (p : Fin 3200) (q : Fin 128), j = ix2 p q := ⟨j 0, j 1, eq_ix2 j⟩
  refine (msg_at V c t p q ⟨t.val * 3200 + p.val, row_lt t p⟩ rfl).trans ?_
  rw [View.read_apply]
  refine congrArg _ (funext fun a => Fin.ext ?_)
  obtain ⟨-, -, -, -, -, -, -, -, -, -, -, -, -, -, -, -, -, h0, h1, -⟩ := idx_facts t
  match a with
  | ⟨0, _⟩ => show t.val * 3200 + p.val = win0_11.index t (0 : Fin 2) * 3200 + 1 * p.val; rw [h0]; omega
  | ⟨1, _⟩ => show q.val = win0_11.index t (1 : Fin 2) * 128 + 1 * q.val; rw [h1]; omega

/-- WHAT POINT t WRITES BACK to the weight array is its block of w of the messages. -/
theorem flushed12_eq (c : Dev nD) (t : Fin cfg0.N) :
    (dat0 V c).flushed 12 t = ((cfg0.win 12).blk t).view.read (Elt Ideal)
      (Cert.Spec.edgeWArr (Cert.Spec.edgeMArr (V c main_v10) (V c main_v17) (V c main_v35) (V c main_v36) (V c main_v37) (V c main_v39)
          (V c main_arg4) (V c main_arg5) (V c main_arg6)) (V c main_v40) (V c main_arg12)) := by
  show (cfg0.win 12).cut (grid0.coords t) ((dat0 V c).after 12 t) = _
  rw [after0_12]
  unfold out0_12
  rw [View.canon_unit_zero hz2]
  simp only [View.ld_unit_zero (S := S3200x128) hz2, View.ld_unit_zero (S := S3200x1) hz2, View.ld_unit_zero (S := S128x128) hz2, View.ld_unit_zero (S := S128) hz1, View.ld_unit_zero (S := S1) hz1]
  funext j
  obtain ⟨p, u, rfl⟩ : ∃ (p : Fin 3200) (u : Fin 1), j = ix2 p u := ⟨j 0, j 1, eq_ix2 j⟩
  refine (pay1_apply _ _ _ p u).trans ?_
  rw [blk9_eq, blk10_eq]
  simp only [msg_at V c t p _ ⟨t.val * 3200 + p.val, row_lt t p⟩ rfl]
  rw [View.read_apply]
  show Cert.Spec.edgeW _ _ _ (⟨t.val * 3200 + p.val, row_lt t p⟩ : Fin 800000) = Cert.Spec.edgeW _ _ _ _
  refine congrArg _ (Fin.ext ?_)
  obtain ⟨-, -, -, -, -, -, -, -, -, -, -, -, -, -, -, -, -, -, -, h0, h1⟩ := idx_facts t
  show t.val * 3200 + p.val = win0_12.index t (0 : Fin 2) * 3200 + 1 * p.val
  rw [h0]; omega

/-- An index of the message array is in point t's block iff each coordinate is in the block's range on its axis. -/
theorem mem_blk11 (t : Fin cfg0.N) (i : S800000x128.Idx) :
    i ∈ ((cfg0.win 11).blk t).view.set ↔ ∀ a : Fin 2, win0_11.index t a * S3200x128.size a ≤ (i a).val ∧ (i a).val < win0_11.index t a * S3200x128.size a + S3200x128.size a := by
  show i ∈ ((View.whole main_v41_0).slice (win0_11.rect t)).set ↔ _
  rw [View.set_slice_whole, Rect.mem_set_unit]
  exact Iff.rfl

/-- The same for the weight array. -/
theorem mem_blk12 (t : Fin cfg0.N) (i : S800000x1.Idx) :
    i ∈ ((cfg0.win 12).blk t).view.set ↔ ∀ a : Fin 2, win0_12.index t a * S3200x1.size a ≤ (i a).val ∧ (i a).val < win0_12.index t a * S3200x1.size a + S3200x1.size a := by
  show i ∈ ((View.whole main_v41_1).slice (win0_12.rect t)).set ↔ _
  rw [View.set_slice_whole, Rect.mem_set_unit]
  exact Iff.rfl

/-- The row blocks tile the edge axis: edge r is in the block of point r / 3200. -/
theorem cover11 (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  have hN : cfg0.N = 250 := N250
  obtain ⟨t, ht⟩ : ∃ t : Fin cfg0.N, t.val = (i 0).val / 3200 := ⟨⟨(i 0).val / 3200, by rw [hN]; omega⟩, rfl⟩
  refine ⟨t, flush0_11 t, ?_⟩
  rw [mem_blk11]
  obtain ⟨-, -, -, -, -, -, -, -, -, -, -, -, -, -, -, -, -, h0, h1, -⟩ := idx_facts t
  intro a
  match a with
  | ⟨0, _⟩ => show win0_11.index t (0 : Fin 2) * 3200 ≤ (i 0).val ∧ (i 0).val < win0_11.index t (0 : Fin 2) * 3200 + 3200; rw [h0, ht]; omega
  | ⟨1, _⟩ => show win0_11.index t (1 : Fin 2) * 128 ≤ (i 1).val ∧ (i 1).val < win0_11.index t (1 : Fin 2) * 128 + 128; rw [h1]; omega

theorem cover12 (i : S800000x1.Idx) :
    ∃ t : Fin cfg0.N, (cfg0.win 12).flush t = true ∧ i ∈ ((cfg0.win 12).blk t).view.set := by
  have hi0 : (i 0).val < 800000 := (i 0).isLt
  have hi1 : (i 1).val < 1 := (i 1).isLt
  have hN : cfg0.N = 250 := N250
  obtain ⟨t, ht⟩ : ∃ t : Fin cfg0.N, t.val = (i 0).val / 3200 := ⟨⟨(i 0).val / 3200, by rw [hN]; omega⟩, rfl⟩
  refine ⟨t, flush0_12 t, ?_⟩
  rw [mem_blk12]
  obtain ⟨-, -, -, -, -, -, -, -, -, -, -, -, -, -, -, -, -, -, -, h0, h1⟩ := idx_facts t
  intro a
  match a with
  | ⟨0, _⟩ => show win0_12.index t (0 : Fin 2) * 3200 ≤ (i 0).val ∧ (i 0).val < win0_12.index t (0 : Fin 2) * 3200 + 3200; rw [h0, ht]; omega
  | ⟨1, _⟩ => show win0_12.index t (1 : Fin 2) * 1 ≤ (i 1).val ∧ (i 1).val < win0_12.index t (1 : Fin 2) * 1 + 1; rw [h1]; omega

/-- The message array after the region: M of the region's input arrays as it finds them. -/
theorem final0_11 (c : Dev nD) :
    (dat0 (F := Ideal) V c).arrAt 11 cfg0.N
      = Cert.Spec.edgeMArr (V c main_v10) (V c main_v17) (V c main_v35) (V c main_v36) (V c main_v37) (V c main_v39)
          (V c main_arg4) (V c main_arg5) (V c main_arg6) :=
  (dat0 V c).arrAt_eq_of_cover 11 _ (fun t _ => flushed11_eq V c t) cover11

/-- The edge-weight array after the region: w of the messages. -/
theorem final0_12 (c : Dev nD) :
    (dat0 (F := Ideal) V c).arrAt 12 cfg0.N
      = Cert.Spec.edgeWArr (Cert.Spec.edgeMArr (V c main_v10) (V c main_v17) (V c main_v35) (V c main_v36) (V c main_v37) (V c main_v39)
          (V c main_arg4) (V c main_arg5) (V c main_arg6)) (V c main_v40) (V c main_arg12) :=
  (dat0 V c).arrAt_eq_of_cover 12 _ (fun t _ => flushed12_eq V c t) cover12

end Cert.KernelIdeal.R0

end
-- ==== Proof.R1.lean ====
/-
  What the node-network region leaves in its result array, over the extended reals.

  The region runs over 10 grid points; point t handles the 5000 nodes [5000·t, 5000·t + 5000).  Its body reads the
  point's blocks of x and agg (5000×128) and the whole weight arrays and stores the block of updated features.  The
  stored block is the block of ONE whole-array function of the region's input arrays (Cert.Spec.nodeOutArr): a row
  of the block depends only on the same row of x and agg, and the row blocks tile the node axis.
-/
import proofs.«110710_j11742440587289_1_alg».proof.Proof.Gen.KernelIdeal.Frame
import proofs.«110710_j11742440587289_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The products' operand indices -/

/-- The left operand of a node product is read on the row of the result index … -/
theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summation index along its columns; -/
theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index along its rows … -/
theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and on the column of the result index. -/
theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into the zero splat, at row `p` and column `q`: Σ_k a(p,k)·b(k,q). -/
theorem matmul_at {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

/-- A bias vector laid out as one row and repeated down the 5000 rows reads, at (p, q), its entry `q`. -/
theorem bias_at {α : Type} (v : S128.Idx → α) (p : Fin 5000) (q : Fin 128) :
    broadcastTo S5000x128 (shapeCast S1x128 v shapeCasts_S128_S1x128) broadcasts_S1x128_S5000x128 (ix2 p q) = v (ix1 q) := by
  refine (broadcastTo_apply _ broadcasts_S1x128_S5000x128 (ix2 p q) (ix2 (⟨0, Nat.one_pos⟩ : Fin 1) q) (fun a => ?_)).trans ?_
  · match a with
    | ⟨0, _⟩ => rfl
    | ⟨1, _⟩ => rfl
  · refine (shapeCast_addUnit_apply ![128] v shapeCasts_S128_S1x128 (ix2 (⟨0, Nat.one_pos⟩ : Fin 1) q)).trans ?_
    exact congrArg v (funext fun a => match a with | ⟨0, _⟩ => rfl)

/-! ## The stored value at an index -/

/-- The first node layer before its activation, as the body computes it from its loaded blocks. -/
def hidV (x0 x1 : Vec Ideal S5000x128 .f32) (x2 x3 : Vec Ideal S128x128 .f32) (x4 : Vec Ideal S128 .f32) : FVec Ideal S5000x128 .f32 :=
  addf (addf
      (matmul dot_S5000x128_S128x128_S5000x128_1_0_0_1_n_n none (truncf .bf16 x0 bitsLt_bf16_f32)
        (truncf .bf16 (shapeCast S128x128 x2 shapeCasts_S128x128_S128x128) bitsLt_bf16_f32) (constant (F := Ideal) S5000x128 .f32 0x00000000#32))
      (matmul dot_S5000x128_S128x128_S5000x128_1_0_0_1_n_n none (truncf .bf16 (shapeCast S5000x128 x1 shapeCasts_S5000x128_S5000x128) bitsLt_bf16_f32)
        (truncf .bf16 (shapeCast S128x128 x3 shapeCasts_S128x128_S128x128) bitsLt_bf16_f32) (constant (F := Ideal) S5000x128 .f32 0x00000000#32)))
    (broadcastTo S5000x128 (shapeCast S1x128 x4 shapeCasts_S128_S1x128) broadcasts_S1x128_S5000x128)

/-- At row `p` and hidden unit `k` it is Σ_l x(p,l)·Na(l,k) + Σ_l agg(p,l)·Nb(l,k) + nb1(k). -/
theorem hidV_at (x0 x1 : Vec Ideal S5000x128 .f32) (x2 x3 : Vec Ideal S128x128 .f32) (x4 : Vec Ideal S128 .f32) (p : Fin 5000) (k : Fin 128) :
    hidV x0 x1 x2 x3 x4 (ix2 p k)
      = ((∑ l : Fin 128, x0 (ix2 p l) * x2 (ix2 l k)) + (∑ l : Fin 128, x1 (ix2 p l) * x3 (ix2 l k))) + x4 (ix1 k) := by
  unfold hidV
  rw [shapeCast_self x2, shapeCast_self x1, shapeCast_self x3, addf_apply, addf_apply, matmul_at, matmul_at, bias_at]
  rfl

/-- The stored block is the input block plus the second layer of the activated first layer. -/
theorem pay_eq (x0 x1 : Vec Ideal S5000x128 .f32) (x2 x3 : Vec Ideal S128x128 .f32) (x4 : Vec Ideal S128 .f32) (x5 : Vec Ideal S128x128 .f32) (x6 : Vec Ideal S128 .f32) :
    k1_pay1 x0 x1 x2 x3 x4 x5 x6
      = addf x0 (addf
          (matmul dot_S5000x128_S128x128_S5000x128_1_0_0_1_n_n none
            (truncf .bf16 (mulf (hidV x0 x1 x2 x3 x4) (logistic (hidV x0 x1 x2 x3 x4))) bitsLt_bf16_f32)
            (truncf .bf16 x5 bitsLt_bf16_f32) (constant (F := Ideal) S5000x128 .f32 0x00000000#32))
          (broadcastTo S5000x128 (shapeCast S1x128 x6 shapeCasts_S128_S1x128) broadcasts_S1x128_S5000x128)) := rfl

/-- The stored value at row `p`, column `q`, over the first layer's values. -/
theorem pay_at (x0 x1 : Vec Ideal S5000x128 .f32) (x2 x3 : Vec Ideal S128x128 .f32) (x4 : Vec Ideal S128 .f32) (x5 : Vec Ideal S128x128 .f32) (x6 : Vec Ideal S128 .f32)
    (p : Fin 5000) (q : Fin 128) :
    k1_pay1 x0 x1 x2 x3 x4 x5 x6 (ix2 p q)
      = x0 (ix2 p q) + ((∑ k : Fin 128, Cert.Spec.silu (hidV x0 x1 x2 x3 x4 (ix2 p k)) * x5 (ix2 k q)) + x6 (ix1 q)) := by
  rw [pay_eq, addf_apply, addf_apply, matmul_at, bias_at]
  rfl

/-- The stored value at row `p`, column `q`, over the loaded blocks alone. -/
theorem pay_spec (x0 x1 : Vec Ideal S5000x128 .f32) (x2 x3 : Vec Ideal S128x128 .f32) (x4 : Vec Ideal S128 .f32) (x5 : Vec Ideal S128x128 .f32) (x6 : Vec Ideal S128 .f32)
    (p : Fin 5000) (q : Fin 128) :
    k1_pay1 x0 x1 x2 x3 x4 x5 x6 (ix2 p q)
      = x0 (ix2 p q) + ((∑ k : Fin 128, Cert.Spec.silu (((∑ l : Fin 128, x0 (ix2 p l) * x2 (ix2 l k)) + (∑ l : Fin 128, x1 (ix2 p l) * x3 (ix2 l k))) + x4 (ix1 k)) * x5 (ix2 k q)) + x6 (ix1 q)) := by
  rw [pay_at]
  simp only [hidV_at]

/-! ## From the blocks to the arrays -/

theorem zeros2 : (![0, 0] : Fin 2 → Nat) = fun _ => 0 := funext fun a => by fin_cases a <;> rfl
theorem zeros1 : (![0] : Fin 1 → Nat) = fun _ => 0 := funext fun a => by fin_cases a; rfl

/-- The block indices over the grid: the row-blocked windows (x, agg, the result) are at block (t, 0) at point `t`,
    the weight and bias windows at their one block throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of point `t`'s block is row 5000·t + p of the array. -/
def row (t : Fin cfg1.N) (p : Fin 5000) : Fin 50000 :=
  ⟨t.val * 5000 + p.val, by have ht : t.val < 10 := lt_of_lt_of_eq t.isLt N_1; have := p.isLt; omega⟩

/-- The block of x at point `t`, at (p, l). -/
theorem read_x (c : Dev nD) (t : Fin cfg1.N) (p : Fin 5000) (l : Fin 128) :
    iblk1 V c 0 t (ix2 p l) = V c main_arg0 (ix2 (row t p) l) := by
  unfold iblk1
  show V c main_arg0 (((cfg1.win 0).blk t).view.emb (ix2 p l)) = _
  refine congrArg (V c main_arg0) (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * l.val = l.val; omega

/-- The block of agg at point `t`, at (p, l). -/
theorem read_agg (c : Dev nD) (t : Fin cfg1.N) (p : Fin 5000) (l : Fin 128) :
    iblk1 V c 1 t (ix2 p l) = V c main_v44 (ix2 (row t p) l) := by
  unfold iblk1
  show V c main_v44 (((cfg1.win 1).blk t).view.emb (ix2 p l)) = _
  refine congrArg (V c main_v44) (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 128 + 1 * l.val = l.val; omega

/-- The first weight piece of the first layer is whole at every point. -/
theorem read_na (c : Dev nD) (t : Fin cfg1.N) (l k : Fin 128) :
    iblk1 V c 2 t (ix2 l k) = V c main_v45 (ix2 l k) := by
  unfold iblk1
  show V c main_v45 (((cfg1.win 2).blk t).view.emb (ix2 l k)) = _
  refine congrArg (V c main_v45) (funext fun a => Fin.ext ?_)
  obtain ⟨-, -, -, -, e0, e1, -⟩ := idx_facts t
  match a with
  | ⟨0, _⟩ => show win1_2.index t (0 : Fin 2) * 128 + 1 * l.val = l.val; omega
  | ⟨1, _⟩ => show win1_2.index t (1 : Fin 2) * 128 + 1 * k.val = k.val; omega

/-- So is the second. -/
theorem read_nb (c : Dev nD) (t : Fin cfg1.N) (l k : Fin 128) :
    iblk1 V c 3 t (ix2 l k) = V c main_v46 (ix2 l k) := by
  unfold iblk1
  show V c main_v46 (((cfg1.win 3).blk t).view.emb (ix2 l k)) = _
  refine congrArg (V c main_v46) (funext fun a => Fin.ext ?_)
  obtain ⟨-, -, -, -, -, -, e0, e1, -⟩ := idx_facts t
  match a with
  | ⟨0, _⟩ => show win1_3.index t (0 : Fin 2) * 128 + 1 * l.val = l.val; omega
  | ⟨1, _⟩ => show win1_3.index t (1 : Fin 2) * 128 + 1 * k.val = k.val; omega

/-- The first layer's bias. -/
theorem read_nb1 (c : Dev nD) (t : Fin cfg1.N) (k : Fin 128) :
    iblk1 V c 4 t (ix1 k) = V c main_arg8 (ix1 k) := by
  unfold iblk1
  show V c main_arg8 (((cfg1.win 4).blk t).view.emb (ix1 k)) = _
  refine congrArg (V c main_arg8) (funext fun a => Fin.ext ?_)
  obtain ⟨-, -, -, -, -, -, -, -, e0, -⟩ := idx_facts t
  match a with
  | ⟨0, _⟩ => show win1_4.index t (0 : Fin 1) * 128 + 1 * k.val = k.val; omega

/-- The second layer's weights. -/
theorem read_n2 (c : Dev nD) (t : Fin cfg1.N) (k q : Fin 128) :
    iblk1 V c 5 t (ix2 k q) = V c main_arg9 (ix2 k q) := by
  unfold iblk1
  show V c main_arg9 (((cfg1.win 5).blk t).view.emb (ix2 k q)) = _
  refine congrArg (V c main_arg9) (funext fun a => Fin.ext ?_)
  obtain ⟨-, -, -, -, -, -, -, -, -, e0, e1, -⟩ := idx_facts t
  match a with
  | ⟨0, _⟩ => show win1_5.index t (0 : Fin 2) * 128 + 1 * k.val = k.val; omega
  | ⟨1, _⟩ => show win1_5.index t (1 : Fin 2) * 128 + 1 * q.val = q.val; omega

/-- The second layer's bias. -/
theorem read_nb2 (c : Dev nD) (t : Fin cfg1.N) (q : Fin 128) :
    iblk1 V c 6 t (ix1 q) = V c main_arg10 (ix1 q) := by
  unfold iblk1
  show V c main_arg10 (((cfg1.win 6).blk t).view.emb (ix1 q)) = _
  refine congrArg (V c main_arg10) (funext fun a => Fin.ext ?_)
  obtain ⟨-, -, -, -, -, -, -, -, -, -, -, e0, -⟩ := idx_facts t
  match a with
  | ⟨0, _⟩ => show win1_6.index t (0 : Fin 1) * 128 + 1 * q.val = q.val; omega

/-- Where the result block's entry (p, q) lies in the result array. -/
theorem emb_out (t : Fin cfg1.N) (p : Fin 5000) (q : Fin 128) :
    ((cfg1.win 7).blk t).view.emb (ix2 p q) = ix2 (row t p) q := by
  refine funext fun a => Fin.ext ?_
  obtain ⟨-, -, -, -, -, -, -, -, -, -, -, -, e0, e1⟩ := idx_facts t
  match a with
  | ⟨0, _⟩ => show win1_7.index t (0 : Fin 2) * 5000 + 1 * p.val = t.val * 5000 + p.val; omega
  | ⟨1, _⟩ => show win1_7.index t (1 : Fin 2) * 128 + 1 * q.val = q.val; omega

/-- What the body stores at (p, q) of point `t`'s block is the node update at row 5000·t + p, column q. -/
theorem block_at (c : Dev nD) (t : Fin cfg1.N) (p : Fin 5000) (q : Fin 128) :
    k1_pay1 (iblk1 V c 0 t) (iblk1 V c 1 t) (iblk1 V c 2 t) (iblk1 V c 3 t) (iblk1 V c 4 t) (iblk1 V c 5 t) (iblk1 V c 6 t) (ix2 p q)
      = Cert.Spec.nodeOutArr (V c main_arg0) (V c main_v44) (V c main_v45) (V c main_v46) (V c main_arg8) (V c main_arg9) (V c main_arg10)
          (((cfg1.win 7).blk t).view.emb (ix2 p q)) := by
  rw [pay_spec, emb_out]
  simp only [read_x, read_agg, read_na, read_nb, read_nb1, read_n2, read_nb2]
  rfl

/-- What point `t` writes back is its block of the node update of the region's input arrays. -/
theorem flushed_eq (c : Dev nD) (t : Fin cfg1.N) :
    (dat1 (F := Ideal) V c).flushed 7 t
      = ((cfg1.win 7).blk t).view.read (Elt Ideal)
          (Cert.Spec.nodeOutArr (V c main_arg0) (V c main_v44) (V c main_v45) (V c main_v46) (V c main_arg8) (V c main_arg9) (V c main_arg10)) := by
  show (cfg1.win 7).cut (grid1.coords t) ((dat1 V c).after 7 t) = _
  rw [after1_7]
  unfold out1_7
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  exact block_at V c t p q

/-- An index of the result array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v47).slice (win1_7.rect t)).set ↔ _
  rw [View.set_slice_whole, Rect.mem_set_unit]
  exact Iff.rfl

/-- The row blocks tile the node axis: row `r` is in the block of point r / 5000, which is written back. -/
theorem covered (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, -, -, e0, e1⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The updated-feature array after the region: the node update of the region's input arrays as it finds them. -/
theorem final1_7 (c : Dev nD) :
    (dat1 (F := Ideal) V c).arrAt 7 cfg1.N
      = Cert.Spec.nodeOutArr (V c main_arg0) (V c main_v44) (V c main_v45) (V c main_v46) (V c main_arg8) (V c main_arg9) (V c main_arg10) :=
  (dat1 (F := Ideal) V c).arrAt_eq_of_cover 7 _ (fun t _ => flushed_eq V c t) covered

end Cert.KernelIdeal.R1

end
-- ==== Proof.KHost.lean ====
/-
  The idealized kernel program's host operations, read as functions of @main's arguments, and the contents of its
  buffers at each segment boundary of the run.

  Before the edge region the host gathers xr = x[row], xc = x[col], rij = pos[row] − pos[col], sums rij² over the
  three coordinates (dij) and cuts the first-layer matrix into its row blocks.  Between the regions it scatter-adds
  the messages into the aggregate and cuts the node matrix.  After the node region it scatter-adds
  rij / (√dij + ε) · w into the position update.  Each boundary's contents are those operations applied to the
  launch memory and to what the regions leave (the Spec functions of their input arrays).
-/
import proofs.«110710_j11742440587289_1_alg».proof.Proof.Gen.KernelIdeal.Frame
import proofs.«110710_j11742440587289_1_alg».proof.Proof.Spec
import proofs.«110710_j11742440587289_1_alg».proof.Proof.R0
import proofs.«110710_j11742440587289_1_alg».proof.Proof.R1
import Idealize.ShloMosaic.Lib.StableHlo.Run
import Idealize.ShloMosaic.Lib.Pipeline.Value
import Idealize.ShloMosaic.Lib.ValueIdx

set_option maxRecDepth 16384

noncomputable section

namespace Cert.KernelIdeal.HostV

open Idealize.ShloMosaic Idealize.ShloMosaic.TcCoe Idealize.ShloMosaic.ValueIdx Idealize.SL.Sem Idealize.ShloMosaic.StableHlo
open Cert.KernelIdeal Cert.KernelIdeal.Gen

/-! ## The host operations as functions of the arguments -/

section Defs
variable {F : FTy → Type} [FloatOps F]

/-- Row 0 of edge_index: the source node of each edge. -/
def hRow (x2 : (⟨S2x800000, .i32⟩ : BufTy).Contents (Elt F)) : (⟨S800000, .i32⟩ : BufTy).Contents (Elt F) :=
  shapeCast _ (extractStridedSlice S1x800000 ![0, 0] x2 slices_S2x800000_S1x800000_0_0) shapeCasts_S1x800000_S800000
/-- Row 1 of edge_index: the target node of each edge. -/
def hCol (x2 : (⟨S2x800000, .i32⟩ : BufTy).Contents (Elt F)) : (⟨S800000, .i32⟩ : BufTy).Contents (Elt F) :=
  shapeCast _ (extractStridedSlice S1x800000 ![1, 0] x2 slices_S2x800000_S1x800000_1_0) shapeCasts_S1x800000_S800000
/-- A node index made non-negative (a negative index counts from the end) and laid out as a gather index column. -/
def hWrap (r : (⟨S800000, .i32⟩ : BufTy).Contents (Elt F)) : (⟨S800000x1, .i32⟩ : BufTy).Contents (Elt F) :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)
/-- xr = x[row]. -/
def hXR (x0 : (⟨S50000x128, .f32⟩ : BufTy).Contents (Elt F)) (x2 : (⟨S2x800000, .i32⟩ : BufTy).Contents (Elt F)) :
    (⟨S800000x128, .f32⟩ : BufTy).Contents (Elt F) :=
  Host.gather gather_S50000x128_S800000x1_S800000x128_1_0_n_n_0_1_1128 x0 (hWrap (hRow x2))
/-- xc = x[col]. -/
def hXC (x0 : (⟨S50000x128, .f32⟩ : BufTy).Contents (Elt F)) (x2 : (⟨S2x800000, .i32⟩ : BufTy).Contents (Elt F)) :
    (⟨S800000x128, .f32⟩ : BufTy).Contents (Elt F) :=
  Host.gather gather_S50000x128_S800000x1_S800000x128_1_0_n_n_0_1_1128 x0 (hWrap (hCol x2))
/-- rij = pos[row] − pos[col]. -/
def hRij (x1 : (⟨S50000x3, .f32⟩ : BufTy).Contents (Elt F)) (x2 : (⟨S2x800000, .i32⟩ : BufTy).Contents (Elt F)) :
    (⟨S800000x3, .f32⟩ : BufTy).Contents (Elt F) :=
  subf (Host.gather gather_S50000x3_S800000x1_S800000x3_1_0_n_n_0_1_13 x1 (hWrap (hRow x2)))
    (Host.gather gather_S50000x3_S800000x1_S800000x3_1_0_n_n_0_1_13 x1 (hWrap (hCol x2)))
/-- dij = Σ rij², kept as a column. -/
def hDij (x1 : (⟨S50000x3, .f32⟩ : BufTy).Contents (Elt F)) (x2 : (⟨S2x800000, .i32⟩ : BufTy).Contents (Elt F)) :
    (⟨S800000x1, .f32⟩ : BufTy).Contents (Elt F) :=
  broadcastInDim S800000x1 ![0] bcast_S800000_S800000x1_0
    (Host.reduceAdd (mulf (hRij x1 x2) (hRij x1 x2)) (constant S_ .f32 0x00000000#32) reducesTo_S800000x3_S800000_d1 h_S_)
/-- Rows [0, 128) of the edge first-layer matrix. -/
def hWa (x3 : (⟨S257x128, .f32⟩ : BufTy).Contents (Elt F)) : (⟨S128x128, .f32⟩ : BufTy).Contents (Elt F) :=
  extractStridedSlice S128x128 ![0, 0] x3 slices_S257x128_S128x128_0_0
/-- Rows [128, 256) of the edge first-layer matrix. -/
def hWb (x3 : (⟨S257x128, .f32⟩ : BufTy).Contents (Elt F)) : (⟨S128x128, .f32⟩ : BufTy).Contents (Elt F) :=
  extractStridedSlice S128x128 ![128, 0] x3 slices_S257x128_S128x128_128_0
/-- Row 256 of the edge first-layer matrix. -/
def hWc (x3 : (⟨S257x128, .f32⟩ : BufTy).Contents (Elt F)) : (⟨S128, .f32⟩ : BufTy).Contents (Elt F) :=
  shapeCast _ (extractStridedSlice S1x128 ![256, 0] x3 slices_S257x128_S1x128_256_0) shapeCasts_S1x128_S128
/-- The one column of cW as a vector. -/
def hCw (x11 : (⟨S128x1, .f32⟩ : BufTy).Contents (Elt F)) : (⟨S128, .f32⟩ : BufTy).Contents (Elt F) :=
  shapeCast _ x11 shapeCasts_S128x1_S128
/-- The source nodes as a scatter index column. -/
def hRowB (x2 : (⟨S2x800000, .i32⟩ : BufTy).Contents (Elt F)) : (⟨S800000x1, .i32⟩ : BufTy).Contents (Elt F) :=
  broadcastInDim S800000x1 ![0] bcast_S800000_S800000x1_0 (hRow x2)
/-- The aggregate: the messages summed into their source nodes. -/
def hAgg (x2 : (⟨S2x800000, .i32⟩ : BufTy).Contents (Elt F)) (M : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (hRowB x2) M
/-- Rows [0, 128) of the node first-layer matrix. -/
def hNa (x7 : (⟨S256x128, .f32⟩ : BufTy).Contents (Elt F)) : (⟨S128x128, .f32⟩ : BufTy).Contents (Elt F) :=
  extractStridedSlice S128x128 ![0, 0] x7 slices_S256x128_S128x128_0_0
/-- Rows [128, 256) of the node first-layer matrix. -/
def hNb (x7 : (⟨S256x128, .f32⟩ : BufTy).Contents (Elt F)) : (⟨S128x128, .f32⟩ : BufTy).Contents (Elt F) :=
  extractStridedSlice S128x128 ![128, 0] x7 slices_S256x128_S128x128_128_0
/-- The new positions: pos + the scatter-add of rij / (√dij + ε) · w into the source nodes. -/
def hPos (x1 : (⟨S50000x3, .f32⟩ : BufTy).Contents (Elt F)) (x2 : (⟨S2x800000, .i32⟩ : BufTy).Contents (Elt F))
    (w : (⟨S800000x1, .f32⟩ : BufTy).Contents (Elt F)) : (⟨S50000x3, .f32⟩ : BufTy).Contents (Elt F) :=
  addf x1 (Host.scatterAdd scatter_S50000x3_S800000x1_S800000x3_1_0_0_1
    (broadcastInDim S50000x3 ![] bcast_S_S50000x3 (constant S_ .f32 0x00000000#32)) (hRowB x2)
    (mulf (Host.divf (hRij x1 x2) (broadcastInDim S800000x3 ![0, 1] bcast_S800000x1_S800000x3_0_1
        (addf (Host.sqrt (hDij x1 x2)) (broadcastInDim S800000x1 ![] bcast_S_S800000x1 (constant S_ .f32 0x322BCC77#32)))))
      (broadcastInDim S800000x3 ![0, 1] bcast_S800000x1_S800000x3_0_1 w)))

end Defs

/-! ## Region 0's entry contents -/

section W1
variable {F : FTy → Type} [FloatOps F]
variable (m : (ℓ : Loc nD τ sig) → Buf (Elt F) ℓ) (ρ : Dev nD → PrngReg)

theorem W1_v10 (c : Dev nD) : W1 m ρ c (Proc.devRef .tc main_v10)
    = hXR (m ((c.tc : Thread nD τ).loc main_arg0)) (m ((c.tc : Thread nD τ).loc main_arg2)) := by
  show StableHlo.after hostOps0 (W0 m ρ c) (Proc.devRef .tc main_v10) = _
  after_results; rfl
set_option maxHeartbeats 4000000 in
theorem W1_v17 (c : Dev nD) : W1 m ρ c (Proc.devRef .tc main_v17)
    = hXC (m ((c.tc : Thread nD τ).loc main_arg0)) (m ((c.tc : Thread nD τ).loc main_arg2)) := by
  show StableHlo.after hostOps0 (W0 m ρ c) (Proc.devRef .tc main_v17) = _
  after_results_simp <;> rfl
set_option maxHeartbeats 4000000 in
theorem W1_v32 (c : Dev nD) : W1 m ρ c (Proc.devRef .tc main_v32)
    = hRij (m ((c.tc : Thread nD τ).loc main_arg1)) (m ((c.tc : Thread nD τ).loc main_arg2)) := by
  show StableHlo.after hostOps0 (W0 m ρ c) (Proc.devRef .tc main_v32) = _
  after_results_simp <;> rfl
set_option maxHeartbeats 4000000 in
theorem W1_v35 (c : Dev nD) : W1 m ρ c (Proc.devRef .tc main_v35)
    = hDij (m ((c.tc : Thread nD τ).loc main_arg1)) (m ((c.tc : Thread nD τ).loc main_arg2)) := by
  show StableHlo.after hostOps0 (W0 m ρ c) (Proc.devRef .tc main_v35) = _
  after_results_simp <;> rfl
theorem W1_v1 (c : Dev nD) : W1 m ρ c (Proc.devRef .tc main_v1) = hRow (m ((c.tc : Thread nD τ).loc main_arg2)) := by
  show StableHlo.after hostOps0 (W0 m ρ c) (Proc.devRef .tc main_v1) = _
  after_results; rfl
set_option maxHeartbeats 4000000 in
theorem W1_v36 (c : Dev nD) : W1 m ρ c (Proc.devRef .tc main_v36) = hWa (m ((c.tc : Thread nD τ).loc main_arg3)) := by
  show StableHlo.after hostOps0 (W0 m ρ c) (Proc.devRef .tc main_v36) = _
  after_results_simp <;> rfl
set_option maxHeartbeats 4000000 in
theorem W1_v37 (c : Dev nD) : W1 m ρ c (Proc.devRef .tc main_v37) = hWb (m ((c.tc : Thread nD τ).loc main_arg3)) := by
  show StableHlo.after hostOps0 (W0 m ρ c) (Proc.devRef .tc main_v37) = _
  after_results_simp <;> rfl
set_option maxHeartbeats 4000000 in
theorem W1_v39 (c : Dev nD) : W1 m ρ c (Proc.devRef .tc main_v39) = hWc (m ((c.tc : Thread nD τ).loc main_arg3)) := by
  show StableHlo.after hostOps0 (W0 m ρ c) (Proc.devRef .tc main_v39) = _
  after_results_simp <;> rfl
set_option maxHeartbeats 4000000 in
theorem W1_v40 (c : Dev nD) : W1 m ρ c (Proc.devRef .tc main_v40) = hCw (m ((c.tc : Thread nD τ).loc main_arg11)) := by
  show StableHlo.after hostOps0 (W0 m ρ c) (Proc.devRef .tc main_v40) = _
  after_results_simp <;> rfl

end W1

/-! ## The later boundaries, over the extended reals -/

section Chain
variable (m : (ℓ : Loc nD τ sig) → Buf (Elt Ideal) ℓ) (ρ : Dev nD → PrngReg)

/-- A buffer no operation of a host stretch writes holds after the stretch what it held before. -/
macro "not_written" : tactic =>
  `(tactic| (refine StableHlo.after_of_forall_not_mem _ _ (List.forall_iff_forall_mem.mp ?_)
             simp only [hostOps0, hostOps1, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- An argument array as launched. -/
abbrev arg (c : Dev nD) (b : Ref sig .tc) : Buf (Elt Ideal) ((c.tc : Thread nD τ).loc b) := m ((c.tc : Thread nD τ).loc b)

/-- An argument array is as launched when region 0 is entered. -/
theorem W1_arg (c : Dev nD) (b : Ref sig .tc)
    (h : (hostOps0 (F := Ideal)).Forall fun op => Proc.devRef .tc b ∉ op.writes) :
    W1 m ρ c (Proc.devRef .tc b) = arg m c b :=
  StableHlo.after_of_forall_not_mem _ _ (List.forall_iff_forall_mem.mp h)

/-- The edge messages as the kernel program computes them. -/
def Mk (c : Dev nD) : (⟨S800000x128, .f32⟩ : BufTy).Contents (Elt Ideal) :=
  Cert.Spec.edgeMArr (hXR (arg m c main_arg0) (arg m c main_arg2)) (hXC (arg m c main_arg0) (arg m c main_arg2))
    (hDij (arg m c main_arg1) (arg m c main_arg2)) (hWa (arg m c main_arg3)) (hWb (arg m c main_arg3)) (hWc (arg m c main_arg3))
    (arg m c main_arg4) (arg m c main_arg5) (arg m c main_arg6)
/-- The edge weights as the kernel program computes them. -/
def Wk (c : Dev nD) : (⟨S800000x1, .f32⟩ : BufTy).Contents (Elt Ideal) :=
  Cert.Spec.edgeWArr (Mk m c) (hCw (arg m c main_arg11)) (arg m c main_arg12)

theorem W1_arg0 (c : Dev nD) : W1 m ρ c (Proc.devRef .tc main_arg0) = arg m c main_arg0 := by
  show StableHlo.after hostOps0 (W0 m ρ c) _ = _; not_written
theorem W1_arg1 (c : Dev nD) : W1 m ρ c (Proc.devRef .tc main_arg1) = arg m c main_arg1 := by
  show StableHlo.after hostOps0 (W0 m ρ c) _ = _; not_written
theorem W1_arg4 (c : Dev nD) : W1 m ρ c (Proc.devRef .tc main_arg4) = arg m c main_arg4 := by
  show StableHlo.after hostOps0 (W0 m ρ c) _ = _; not_written
theorem W1_arg5 (c : Dev nD) : W1 m ρ c (Proc.devRef .tc main_arg5) = arg m c main_arg5 := by
  show StableHlo.after hostOps0 (W0 m ρ c) _ = _; not_written
theorem W1_arg6 (c : Dev nD) : W1 m ρ c (Proc.devRef .tc main_arg6) = arg m c main_arg6 := by
  show StableHlo.after hostOps0 (W0 m ρ c) _ = _; not_written
theorem W1_arg7 (c : Dev nD) : W1 m ρ c (Proc.devRef .tc main_arg7) = arg m c main_arg7 := by
  show StableHlo.after hostOps0 (W0 m ρ c) _ = _; not_written
theorem W1_arg8 (c : Dev nD) : W1 m ρ c (Proc.devRef .tc main_arg8) = arg m c main_arg8 := by
  show StableHlo.after hostOps0 (W0 m ρ c) _ = _; not_written
theorem W1_arg9 (c : Dev nD) : W1 m ρ c (Proc.devRef .tc main_arg9) = arg m c main_arg9 := by
  show StableHlo.after hostOps0 (W0 m ρ c) _ = _; not_written
theorem W1_arg10 (c : Dev nD) : W1 m ρ c (Proc.devRef .tc main_arg10) = arg m c main_arg10 := by
  show StableHlo.after hostOps0 (W0 m ρ c) _ = _; not_written
theorem W1_arg12 (c : Dev nD) : W1 m ρ c (Proc.devRef .tc main_arg12) = arg m c main_arg12 := by
  show StableHlo.after hostOps0 (W0 m ρ c) _ = _; not_written

/-! ### Region 0's exit -/

/-- The message array when region 0 is left. -/
theorem W2_v41_0 (c : Dev nD) : W2 m ρ c (Proc.devRef .tc main_v41_0) = Mk m c := by
  refine (W2_arr m ρ c 11).trans ?_
  refine (Cert.KernelIdeal.R0.final0_11 (V1 m ρ) c).trans ?_
  show Cert.Spec.edgeMArr (W1 m ρ c (Proc.devRef .tc main_v10)) (W1 m ρ c (Proc.devRef .tc main_v17)) (W1 m ρ c (Proc.devRef .tc main_v35))
    (W1 m ρ c (Proc.devRef .tc main_v36)) (W1 m ρ c (Proc.devRef .tc main_v37)) (W1 m ρ c (Proc.devRef .tc main_v39))
    (W1 m ρ c (Proc.devRef .tc main_arg4)) (W1 m ρ c (Proc.devRef .tc main_arg5)) (W1 m ρ c (Proc.devRef .tc main_arg6)) = _
  rw [W1_v10, W1_v17, W1_v35, W1_v36, W1_v37, W1_v39, W1_arg4, W1_arg5, W1_arg6]
  rfl
/-- The edge-weight array when region 0 is left. -/
theorem W2_v41_1 (c : Dev nD) : W2 m ρ c (Proc.devRef .tc main_v41_1) = Wk m c := by
  refine (W2_arr m ρ c 12).trans ?_
  refine (Cert.KernelIdeal.R0.final0_12 (V1 m ρ) c).trans ?_
  show Cert.Spec.edgeWArr (Cert.Spec.edgeMArr (W1 m ρ c (Proc.devRef .tc main_v10)) (W1 m ρ c (Proc.devRef .tc main_v17)) (W1 m ρ c (Proc.devRef .tc main_v35))
    (W1 m ρ c (Proc.devRef .tc main_v36)) (W1 m ρ c (Proc.devRef .tc main_v37)) (W1 m ρ c (Proc.devRef .tc main_v39))
    (W1 m ρ c (Proc.devRef .tc main_arg4)) (W1 m ρ c (Proc.devRef .tc main_arg5)) (W1 m ρ c (Proc.devRef .tc main_arg6)))
    (W1 m ρ c (Proc.devRef .tc main_v40)) (W1 m ρ c (Proc.devRef .tc main_arg12)) = _
  rw [W1_v10, W1_v17, W1_v35, W1_v36, W1_v37, W1_v39, W1_arg4, W1_arg5, W1_arg6, W1_v40, W1_arg12]
  rfl
theorem W2_v1 (c : Dev nD) : W2 m ρ c (Proc.devRef .tc main_v1) = hRow (arg m c main_arg2) :=
  (W2_of_ne m ρ c main_v1 (by decide)).trans (W1_v1 m ρ c)
theorem W2_v32 (c : Dev nD) : W2 m ρ c (Proc.devRef .tc main_v32) = hRij (arg m c main_arg1) (arg m c main_arg2) :=
  (W2_of_ne m ρ c main_v32 (by decide)).trans (W1_v32 m ρ c)
/-- The squared distances are an input of region 0: it leaves them as it found them. -/
theorem W2_v35 (c : Dev nD) : W2 m ρ c (Proc.devRef .tc main_v35) = hDij (arg m c main_arg1) (arg m c main_arg2) :=
  ((W2_arr m ρ c 2).trans (((dat0 (V1 m ρ) c).arrAt_in 2 rfl _).trans (A_eq0 (V1 m ρ) c 2))).trans (W1_v35 m ρ c)
theorem W2_arg0 (c : Dev nD) : W2 m ρ c (Proc.devRef .tc main_arg0) = arg m c main_arg0 :=
  (W2_of_ne m ρ c main_arg0 (by decide)).trans (W1_arg0 m ρ c)
theorem W2_arg1 (c : Dev nD) : W2 m ρ c (Proc.devRef .tc main_arg1) = arg m c main_arg1 :=
  (W2_of_ne m ρ c main_arg1 (by decide)).trans (W1_arg1 m ρ c)
theorem W2_arg7 (c : Dev nD) : W2 m ρ c (Proc.devRef .tc main_arg7) = arg m c main_arg7 :=
  (W2_of_ne m ρ c main_arg7 (by decide)).trans (W1_arg7 m ρ c)
theorem W2_arg8 (c : Dev nD) : W2 m ρ c (Proc.devRef .tc main_arg8) = arg m c main_arg8 :=
  (W2_of_ne m ρ c main_arg8 (by decide)).trans (W1_arg8 m ρ c)
theorem W2_arg9 (c : Dev nD) : W2 m ρ c (Proc.devRef .tc main_arg9) = arg m c main_arg9 :=
  (W2_of_ne m ρ c main_arg9 (by decide)).trans (W1_arg9 m ρ c)
theorem W2_arg10 (c : Dev nD) : W2 m ρ c (Proc.devRef .tc main_arg10) = arg m c main_arg10 :=
  (W2_of_ne m ρ c main_arg10 (by decide)).trans (W1_arg10 m ρ c)

/-! ### Region 1's entry -/

theorem W3_v44 (c : Dev nD) : W3 m ρ c (Proc.devRef .tc main_v44) = hAgg (arg m c main_arg2) (Mk m c) := by
  show StableHlo.after hostOps1 (W2 m ρ c) (Proc.devRef .tc main_v44) = _
  after_results
  rw [W2_v1, W2_v41_0]
  rfl
theorem W3_v45 (c : Dev nD) : W3 m ρ c (Proc.devRef .tc main_v45) = hNa (arg m c main_arg7) := by
  show StableHlo.after hostOps1 (W2 m ρ c) (Proc.devRef .tc main_v45) = _
  after_results
  rw [W2_arg7]
  rfl
theorem W3_v46 (c : Dev nD) : W3 m ρ c (Proc.devRef .tc main_v46) = hNb (arg m c main_arg7) := by
  show StableHlo.after hostOps1 (W2 m ρ c) (Proc.devRef .tc main_v46) = _
  after_results
  rw [W2_arg7]
  rfl
theorem W3_arg0 (c : Dev nD) : W3 m ρ c (Proc.devRef .tc main_arg0) = arg m c main_arg0 := by
  refine Eq.trans ?_ (W2_arg0 m ρ c); show StableHlo.after hostOps1 (W2 m ρ c) _ = _; not_written
theorem W3_arg1 (c : Dev nD) : W3 m ρ c (Proc.devRef .tc main_arg1) = arg m c main_arg1 := by
  refine Eq.trans ?_ (W2_arg1 m ρ c); show StableHlo.after hostOps1 (W2 m ρ c) _ = _; not_written
theorem W3_arg8 (c : Dev nD) : W3 m ρ c (Proc.devRef .tc main_arg8) = arg m c main_arg8 := by
  refine Eq.trans ?_ (W2_arg8 m ρ c); show StableHlo.after hostOps1 (W2 m ρ c) _ = _; not_written
theorem W3_arg9 (c : Dev nD) : W3 m ρ c (Proc.devRef .tc main_arg9) = arg m c main_arg9 := by
  refine Eq.trans ?_ (W2_arg9 m ρ c); show StableHlo.after hostOps1 (W2 m ρ c) _ = _; not_written
theorem W3_arg10 (c : Dev nD) : W3 m ρ c (Proc.devRef .tc main_arg10) = arg m c main_arg10 := by
  refine Eq.trans ?_ (W2_arg10 m ρ c); show StableHlo.after hostOps1 (W2 m ρ c) _ = _; not_written
theorem W3_v1 (c : Dev nD) : W3 m ρ c (Proc.devRef .tc main_v1) = hRow (arg m c main_arg2) := by
  refine Eq.trans ?_ (W2_v1 m ρ c); show StableHlo.after hostOps1 (W2 m ρ c) _ = _; not_written
theorem W3_v32 (c : Dev nD) : W3 m ρ c (Proc.devRef .tc main_v32) = hRij (arg m c main_arg1) (arg m c main_arg2) := by
  refine Eq.trans ?_ (W2_v32 m ρ c); show StableHlo.after hostOps1 (W2 m ρ c) _ = _; not_written
theorem W3_v35 (c : Dev nD) : W3 m ρ c (Proc.devRef .tc main_v35) = hDij (arg m c main_arg1) (arg m c main_arg2) := by
  refine Eq.trans ?_ (W2_v35 m ρ c); show StableHlo.after hostOps1 (W2 m ρ c) _ = _; not_written
theorem W3_v41_1 (c : Dev nD) : W3 m ρ c (Proc.devRef .tc main_v41_1) = Wk m c := by
  refine Eq.trans ?_ (W2_v41_1 m ρ c); show StableHlo.after hostOps1 (W2 m ρ c) _ = _; not_written

/-! ### Region 1's exit -/

/-- The aggregate as the kernel program computes it. -/
abbrev Aggk (c : Dev nD) : (⟨S50000x128, .f32⟩ : BufTy).Contents (Elt Ideal) := hAgg (arg m c main_arg2) (Mk m c)

/-- The node result when region 1 is left. -/
theorem W4_v47 (c : Dev nD) : W4 m ρ c (Proc.devRef .tc main_v47)
    = Cert.Spec.nodeOutArr (arg m c main_arg0) (Aggk m c) (hNa (arg m c main_arg7)) (hNb (arg m c main_arg7))
        (arg m c main_arg8) (arg m c main_arg9) (arg m c main_arg10) := by
  refine (W4_arr m ρ c 7).trans ?_
  refine (Cert.KernelIdeal.R1.final1_7 (V3 m ρ) c).trans ?_
  show Cert.Spec.nodeOutArr (W3 m ρ c (Proc.devRef .tc main_arg0)) (W3 m ρ c (Proc.devRef .tc main_v44)) (W3 m ρ c (Proc.devRef .tc main_v45))
    (W3 m ρ c (Proc.devRef .tc main_v46)) (W3 m ρ c (Proc.devRef .tc main_arg8)) (W3 m ρ c (Proc.devRef .tc main_arg9))
    (W3 m ρ c (Proc.devRef .tc main_arg10)) = _
  rw [W3_arg0, W3_v44, W3_v45, W3_v46, W3_arg8, W3_arg9, W3_arg10]
theorem W4_arg1 (c : Dev nD) : W4 m ρ c (Proc.devRef .tc main_arg1) = arg m c main_arg1 :=
  (W4_of_ne m ρ c main_arg1 (by decide)).trans (W3_arg1 m ρ c)
theorem W4_v1 (c : Dev nD) : W4 m ρ c (Proc.devRef .tc main_v1) = hRow (arg m c main_arg2) :=
  (W4_of_ne m ρ c main_v1 (by decide)).trans (W3_v1 m ρ c)
theorem W4_v32 (c : Dev nD) : W4 m ρ c (Proc.devRef .tc main_v32) = hRij (arg m c main_arg1) (arg m c main_arg2) :=
  (W4_of_ne m ρ c main_v32 (by decide)).trans (W3_v32 m ρ c)
theorem W4_v35 (c : Dev nD) : W4 m ρ c (Proc.devRef .tc main_v35) = hDij (arg m c main_arg1) (arg m c main_arg2) :=
  (W4_of_ne m ρ c main_v35 (by decide)).trans (W3_v35 m ρ c)
theorem W4_v41_1 (c : Dev nD) : W4 m ρ c (Proc.devRef .tc main_v41_1) = Wk m c :=
  (W4_of_ne m ρ c main_v41_1 (by decide)).trans (W3_v41_1 m ρ c)

/-! ### The results at the last boundary -/

/-- The node result at the return. -/
theorem out0 (c : Dev nD) : W5 m ρ c (Proc.devRef .tc main_v47)
    = Cert.Spec.nodeOutArr (arg m c main_arg0) (Aggk m c) (hNa (arg m c main_arg7)) (hNb (arg m c main_arg7))
        (arg m c main_arg8) (arg m c main_arg9) (arg m c main_arg10) := by
  refine Eq.trans ?_ (W4_v47 m ρ c); show StableHlo.after hostOps2 (W4 m ρ c) _ = _; not_written

set_option maxHeartbeats 4000000 in
/-- The position result at the return. -/
theorem out1 (c : Dev nD) : W5 m ρ c (Proc.devRef .tc main_v58) = hPos (arg m c main_arg1) (arg m c main_arg2) (Wk m c) := by
  show StableHlo.after hostOps2 (W4 m ρ c) (Proc.devRef .tc main_v58) = _
  after_results_simp
  rw [W4_arg1, W4_v1, W4_v32, W4_v35, W4_v41_1]
  rfl

end Chain

/-! ## The slices of the weight matrices are their row blocks -/

section Slices

theorem hWa_eq (x3 : (⟨S257x128, .f32⟩ : BufTy).Contents (Elt Ideal)) : hWa x3 = Cert.Spec.rowsA x3 := by
  funext i
  unfold hWa Cert.Spec.rowsA
  exact extractStridedSlice_apply ![0, 0] x3 slices_S257x128_S128x128_0_0 i _ (fun a => match a with
    | ⟨0, _⟩ => by show (i 0).val = 0 + (i 0).val; omega
    | ⟨1, _⟩ => by show (i 1).val = 0 + (i 1).val; omega)

theorem hWb_eq (x3 : (⟨S257x128, .f32⟩ : BufTy).Contents (Elt Ideal)) : hWb x3 = Cert.Spec.rowsB x3 := by
  funext i
  unfold hWb Cert.Spec.rowsB
  exact extractStridedSlice_apply ![128, 0] x3 slices_S257x128_S128x128_128_0 i _ (fun a => match a with
    | ⟨0, _⟩ => by show 128 + (i 0).val = 128 + (i 0).val; rfl
    | ⟨1, _⟩ => by show (i 1).val = 0 + (i 1).val; omega)

theorem hWc_eq (x3 : (⟨S257x128, .f32⟩ : BufTy).Contents (Elt Ideal)) : hWc x3 = Cert.Spec.rowC x3 := by
  funext i
  unfold hWc Cert.Spec.rowC
  refine (shapeCast_apply _ shapeCasts_S1x128_S128 i (ix2 (0 : Fin 1) (⟨(i 0).val, (i 0).isLt⟩ : Fin 128)) ?_).trans ?_
  · rewrite [Shape.rowMajor_val_two, Shape.rowMajor_val_one]
    show 0 * 128 + (i 0).val = (i 0).val; omega
  · exact extractStridedSlice_apply ![256, 0] x3 slices_S257x128_S1x128_256_0 _ _ (fun a => match a with
      | ⟨0, _⟩ => by show 256 = 256 + 0; rfl
      | ⟨1, _⟩ => by show (i 0).val = 0 + (i 0).val; omega)

theorem hCw_eq (x11 : (⟨S128x1, .f32⟩ : BufTy).Contents (Elt Ideal)) : hCw x11 = Cert.Spec.col0 x11 := by
  funext i
  unfold hCw Cert.Spec.col0
  refine shapeCast_apply x11 shapeCasts_S128x1_S128 i (ix2 (⟨(i 0).val, (i 0).isLt⟩ : Fin 128) (0 : Fin 1)) ?_
  rewrite [Shape.rowMajor_val_two, Shape.rowMajor_val_one]
  show (i 0).val * 1 + 0 = (i 0).val; omega

theorem hNa_eq (x7 : (⟨S256x128, .f32⟩ : BufTy).Contents (Elt Ideal)) : hNa x7 = Cert.Spec.nrowsA x7 := by
  funext i
  unfold hNa Cert.Spec.nrowsA
  exact extractStridedSlice_apply ![0, 0] x7 slices_S256x128_S128x128_0_0 i _ (fun a => match a with
    | ⟨0, _⟩ => by show (i 0).val = 0 + (i 0).val; omega
    | ⟨1, _⟩ => by show (i 1).val = 0 + (i 1).val; omega)

theorem hNb_eq (x7 : (⟨S256x128, .f32⟩ : BufTy).Contents (Elt Ideal)) : hNb x7 = Cert.Spec.nrowsB x7 := by
  funext i
  unfold hNb Cert.Spec.nrowsB
  exact extractStridedSlice_apply ![128, 0] x7 slices_S256x128_S128x128_128_0 i _ (fun a => match a with
    | ⟨0, _⟩ => by show 128 + (i 0).val = 128 + (i 0).val; rfl
    | ⟨1, _⟩ => by show (i 1).val = 0 + (i 1).val; omega)

end Slices

end Cert.KernelIdeal.HostV

end
-- ==== Proof.RefVal.lean ====
/-
  The reference program's stages, read as the same mathematics the kernel's regions compute.

  The reference forms each edge's input row by concatenating xr(e,·), xc(e,·) and dij(e) (257 entries) and contracts it
  with the whole 257×128 first-layer matrix; a sum over the 257 entries of a concatenation against the matrix's rows
  is the sum over the first 128 against rows [0,128), plus the sum over the next 128 against rows [128,256), plus the
  last entry against row 256 — associativity and commutativity of addition on the extended reals, nothing else.
  Likewise a node's 256-entry row [x(n,·), agg(n,·)] against the 256×128 matrix.  silu is spelt by the reference as
  t · (1 / (1 + exp(−t))), which is t · σ(t) by the definition of the logistic function on the extended reals.
-/
import proofs.«110710_j11742440587289_1_alg».proof.Proof.Gen.ReferenceIdeal.Read
import proofs.«110710_j11742440587289_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefV

open Idealize.ShloMosaic Idealize.ShloMosaic.TcCoe Idealize.ShloMosaic.ValueIdx Idealize.SL.Sem
open Cert.ReferenceIdeal Cert.ReferenceIdeal.Read

/-! ## Sums over a row of blocks, the logistic function spelt out, a concatenation read at an index -/

/-- A sum of 257 terms is the sum of its first 128, plus the sum of its next 128, plus its last term. -/
theorem sum257 (f : Fin 257 → EReal) :
    (∑ k : Fin 257, f k)
      = ((∑ l : Fin 128, f ⟨l.val, by omega⟩) + (∑ l : Fin 128, f ⟨128 + l.val, by omega⟩)) + f ⟨256, by omega⟩ := by
  have h1 := Cert.Spec.sum_split (128 + 128) 1 f
  have h2 := Cert.Spec.sum_split 128 128 (fun k => f (Fin.castAdd 1 k))
  rw [h1, h2, Fin.sum_univ_one]
  rfl

/-- A sum of 256 terms is the sum of its first 128 plus the sum of its last 128. -/
theorem sum256 (f : Fin 256 → EReal) :
    (∑ k : Fin 256, f k)
      = (∑ l : Fin 128, f ⟨l.val, by omega⟩) + (∑ l : Fin 128, f ⟨128 + l.val, by omega⟩) := by
  rw [Cert.Spec.sum_split 128 128 f]
  rfl

/-- `t · (1 / (1 + exp(−t)))`, the two literals 1.0 being the extended real one, is `t · σ(t)`: the logistic function
    is that quotient by definition. -/
theorem silu_spelt (t : EReal) :
    FloatOps.mulf (F := Ideal) (φ := .f32) t (FloatOps.hostDivf (FloatOps.ofBits .f32 0x3F800000#32)
      (FloatOps.addf (FloatOps.ofBits .f32 0x3F800000#32) (FloatOps.hostUnary .exp (FloatOps.hostNegf t))))
      = Cert.Spec.silu t := by
  show t * Ideal.div (Ideal.ofBits .f32 0x3F800000#32) (Ideal.ofBits .f32 0x3F800000#32 + Ideal.exp (-t)) = _
  rw [Ideal.ofBits_one_f32]
  rfl

section Concatenation
variable {α : Type}

/-- The edge row `[a(e,·), b(e,·), d(e)]` at a position below 128 is `a(e,·)` there. -/
theorem cat3_A (a b : S800000x128.Idx → α) (d : S800000x1.Idx → α)
    (h : Shape.Concatenates [S800000x128, S800000x128, S800000x1] S800000x257 1) (e : Fin 800000) (l : Fin 128) :
    concatenate S800000x257 1 [⟨S800000x128, a⟩, ⟨S800000x128, b⟩, ⟨S800000x1, d⟩] h (ix2 e (⟨l.val, by omega⟩ : Fin 257)) = a (ix2 e l) :=
  concatenate_apply_piece (t := S800000x257) 1 [⟨S800000x128, a⟩, ⟨S800000x128, b⟩, ⟨S800000x1, d⟩] h _ 0
    (by show 0 < _ + 1; omega) S800000x128 a rfl rfl 0 rfl (ix2 e l)
    (fun c hc => by match c with | ⟨0, _⟩ => rfl | ⟨1, _⟩ => exact absurd rfl hc) (by show 0 + l.val = l.val; omega)

/-- The edge row at a position `128 + l`, `l < 128`, is `b(e,l)`. -/
theorem cat3_B (a b : S800000x128.Idx → α) (d : S800000x1.Idx → α)
    (h : Shape.Concatenates [S800000x128, S800000x128, S800000x1] S800000x257 1) (e : Fin 800000) (l : Fin 128) :
    concatenate S800000x257 1 [⟨S800000x128, a⟩, ⟨S800000x128, b⟩, ⟨S800000x1, d⟩] h (ix2 e (⟨128 + l.val, by omega⟩ : Fin 257)) = b (ix2 e l) :=
  concatenate_apply_piece (t := S800000x257) 1 [⟨S800000x128, a⟩, ⟨S800000x128, b⟩, ⟨S800000x1, d⟩] h _ 1
    (by show 1 < _ + 1 + 1; omega) S800000x128 b rfl rfl 128 rfl (ix2 e l)
    (fun c hc => by match c with | ⟨0, _⟩ => rfl | ⟨1, _⟩ => exact absurd rfl hc) (by show 128 + l.val = 128 + l.val; rfl)

/-- The edge row at its last position, 256, is `d(e)`. -/
theorem cat3_C (a b : S800000x128.Idx → α) (d : S800000x1.Idx → α)
    (h : Shape.Concatenates [S800000x128, S800000x128, S800000x1] S800000x257 1) (e : Fin 800000) :
    concatenate S800000x257 1 [⟨S800000x128, a⟩, ⟨S800000x128, b⟩, ⟨S800000x1, d⟩] h (ix2 e (⟨256, by omega⟩ : Fin 257)) = d (ix2 e (0 : Fin 1)) :=
  concatenate_apply_piece (t := S800000x257) 1 [⟨S800000x128, a⟩, ⟨S800000x128, b⟩, ⟨S800000x1, d⟩] h _ 2
    (by show 2 < _ + 1 + 1 + 1; omega) S800000x1 d rfl rfl 256 rfl (ix2 e (0 : Fin 1))
    (fun c hc => by match c with | ⟨0, _⟩ => rfl | ⟨1, _⟩ => exact absurd rfl hc) (by show 256 + 0 = 256; rfl)

/-- The node row `[a(n,·), b(n,·)]` at a position below 128 is `a(n,·)` there. -/
theorem cat2_A (a b : S50000x128.Idx → α)
    (h : Shape.Concatenates [S50000x128, S50000x128] S50000x256 1) (n : Fin 50000) (l : Fin 128) :
    concatenate S50000x256 1 [⟨S50000x128, a⟩, ⟨S50000x128, b⟩] h (ix2 n (⟨l.val, by omega⟩ : Fin 256)) = a (ix2 n l) :=
  concatenate_apply_piece (t := S50000x256) 1 [⟨S50000x128, a⟩, ⟨S50000x128, b⟩] h _ 0
    (by show 0 < _ + 1; omega) S50000x128 a rfl rfl 0 rfl (ix2 n l)
    (fun c hc => by match c with | ⟨0, _⟩ => rfl | ⟨1, _⟩ => exact absurd rfl hc) (by show 0 + l.val = l.val; omega)

/-- The node row at a position `128 + l`, `l < 128`, is `b(n,l)`. -/
theorem cat2_B (a b : S50000x128.Idx → α)
    (h : Shape.Concatenates [S50000x128, S50000x128] S50000x256 1) (n : Fin 50000) (l : Fin 128) :
    concatenate S50000x256 1 [⟨S50000x128, a⟩, ⟨S50000x128, b⟩] h (ix2 n (⟨128 + l.val, by omega⟩ : Fin 256)) = b (ix2 n l) :=
  concatenate_apply_piece (t := S50000x256) 1 [⟨S50000x128, a⟩, ⟨S50000x128, b⟩] h _ 1
    (by show 1 < _ + 1 + 1; omega) S50000x128 b rfl rfl 128 rfl (ix2 n l)
    (fun c hc => by match c with | ⟨0, _⟩ => rfl | ⟨1, _⟩ => exact absurd rfl hc) (by show 128 + l.val = 128 + l.val; rfl)

end Concatenation

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-! ## The edge messages -/

/-- The concatenated edge row at a position below 128 is the first gathered feature row there. -/
theorem v36_A (e : Fin 800000) (l : Fin 128) :
    val_main_v36 (F := Ideal) x0 x1 x2 (ix2 e (⟨l.val, by omega⟩ : Fin 257)) = val_main_v28 (F := Ideal) x0 x2 (ix2 e l) := by
  unfold val_main_v36
  exact cat3_A _ _ _ _ e l

/-- The concatenated edge row at a position `128 + l` is the second gathered feature row at `l`. -/
theorem v36_B (e : Fin 800000) (l : Fin 128) :
    val_main_v36 (F := Ideal) x0 x1 x2 (ix2 e (⟨128 + l.val, by omega⟩ : Fin 257)) = val_main_v35 (F := Ideal) x0 x2 (ix2 e l) := by
  unfold val_main_v36
  exact cat3_B _ _ _ _ e l

/-- The concatenated edge row at its last position is the squared distance. -/
theorem v36_C (e : Fin 800000) :
    val_main_v36 (F := Ideal) x0 x1 x2 (ix2 e (⟨256, by omega⟩ : Fin 257)) = val_main_v21 (F := Ideal) x1 x2 (ix2 e (0 : Fin 1)) := by
  unfold val_main_v36
  exact cat3_C _ _ _ _ e

/-- The left operand of the first contraction is read at (edge, position). -/
theorem lidx37 (e : Fin 800000) (k : Fin 128) (q : Fin 257) : lidx_main_v37 (ix2 e k) q = ix2 e q :=
  funext fun a => by match a with | ⟨0, _⟩ => rfl | ⟨1, _⟩ => rfl

/-- The first-layer matrix at a row below 128 is its first row block. -/
theorem x3_A (e : Fin 800000) (k l : Fin 128) :
    x3 (ridx_main_v37 (ix2 e k) (⟨l.val, by omega⟩ : Fin 257)) = Cert.Spec.rowsA x3 (ix2 l k) :=
  congrArg x3 (funext fun a => by match a with | ⟨0, _⟩ => rfl | ⟨1, _⟩ => rfl)

/-- The first-layer matrix at a row `128 + l` is its second row block at `l`. -/
theorem x3_B (e : Fin 800000) (k l : Fin 128) :
    x3 (ridx_main_v37 (ix2 e k) (⟨128 + l.val, by omega⟩ : Fin 257)) = Cert.Spec.rowsB x3 (ix2 l k) :=
  congrArg x3 (funext fun a => by match a with | ⟨0, _⟩ => rfl | ⟨1, _⟩ => rfl)

/-- The first-layer matrix at row 256 is its last row. -/
theorem x3_C (e : Fin 800000) (k : Fin 128) :
    x3 (ridx_main_v37 (ix2 e k) (⟨256, by omega⟩ : Fin 257)) = Cert.Spec.rowC x3 (ix1 k) :=
  congrArg x3 (funext fun a => by match a with | ⟨0, _⟩ => rfl | ⟨1, _⟩ => rfl)

/-- The first contraction: the 257-term sum against the whole matrix is the three blocks' sums. -/
theorem v37_eq (e : Fin 800000) (k : Fin 128) :
    val_main_v37 (F := Ideal) x0 x1 x2 x3 (ix2 e k)
      = ((∑ l : Fin 128, val_main_v28 (F := Ideal) x0 x2 (ix2 e l) * Cert.Spec.rowsA x3 (ix2 l k))
          + (∑ l : Fin 128, val_main_v35 (F := Ideal) x0 x2 (ix2 e l) * Cert.Spec.rowsB x3 (ix2 l k)))
        + val_main_v21 (F := Ideal) x1 x2 (ix2 e (0 : Fin 1)) * Cert.Spec.rowC x3 (ix1 k) := by
  rw [val_main_v37_apply, sum257]
  refine congrArg₂ (· + ·) (congrArg₂ (· + ·) (Finset.sum_congr rfl fun l _ => ?_) (Finset.sum_congr rfl fun l _ => ?_)) ?_
  · exact congrArg₂ (· * ·) ((congrArg _ (lidx37 e k _)).trans (v36_A x0 x1 x2 e l)) (x3_A x3 e k l)
  · exact congrArg₂ (· * ·) ((congrArg _ (lidx37 e k _)).trans (v36_B x0 x1 x2 e l)) (x3_B x3 e k l)
  · exact congrArg₂ (· * ·) ((congrArg _ (lidx37 e k _)).trans (v36_C x0 x1 x2 e)) (x3_C x3 e k)

/-- The first edge layer before its activation. -/
theorem v40_eq (e : Fin 800000) (k : Fin 128) :
    val_main_v40 (F := Ideal) x0 x1 x2 x3 x4 (ix2 e k)
      = Cert.Spec.edgeH (val_main_v28 (F := Ideal) x0 x2) (val_main_v35 (F := Ideal) x0 x2) (val_main_v21 (F := Ideal) x1 x2)
          (Cert.Spec.rowsA x3) (Cert.Spec.rowsB x3) (Cert.Spec.rowC x3) x4 e k := by
  rw [val_main_v40_apply, v37_eq, val_main_v39_apply, val_main_v38_apply]
  exact congrArg₂ (· + ·) rfl (congrArg x4 (funext fun a => by match a with | ⟨0, _⟩ => rfl))

/-- The first activation: the reference's spelling of silu on the first layer. -/
theorem v41_silu (i : S800000x128.Idx) :
    val_main_v41 (F := Ideal) x0 x1 x2 x3 x4 i = Cert.Spec.silu (val_main_v40 (F := Ideal) x0 x1 x2 x3 x4 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply]
  exact silu_spelt _

/-- The second contraction, over the hidden units. -/
theorem v42_eq (e : Fin 800000) (j : Fin 128) :
    val_main_v42 (F := Ideal) x0 x1 x2 x3 x4 x5 (ix2 e j)
      = ∑ k : Fin 128, Cert.Spec.silu (Cert.Spec.edgeH (val_main_v28 (F := Ideal) x0 x2) (val_main_v35 (F := Ideal) x0 x2) (val_main_v21 (F := Ideal) x1 x2)
          (Cert.Spec.rowsA x3) (Cert.Spec.rowsB x3) (Cert.Spec.rowC x3) x4 e k) * x5 (ix2 k j) := by
  rw [val_main_v42_apply]
  refine Finset.sum_congr rfl fun k _ => ?_
  refine congrArg₂ (· * ·) ?_ (congrArg x5 (funext fun a => by match a with | ⟨0, _⟩ => rfl | ⟨1, _⟩ => rfl))
  rw [show lidx_main_v42 (ix2 e j) k = ix2 e k from funext fun a => by match a with | ⟨0, _⟩ => rfl | ⟨1, _⟩ => rfl, v41_silu, v40_eq]

/-- The second edge layer before its activation. -/
theorem v45_eq (e : Fin 800000) (j : Fin 128) :
    val_main_v45 (F := Ideal) x0 x1 x2 x3 x4 x5 x6 (ix2 e j)
      = (∑ k : Fin 128, Cert.Spec.silu (Cert.Spec.edgeH (val_main_v28 (F := Ideal) x0 x2) (val_main_v35 (F := Ideal) x0 x2) (val_main_v21 (F := Ideal) x1 x2)
          (Cert.Spec.rowsA x3) (Cert.Spec.rowsB x3) (Cert.Spec.rowC x3) x4 e k) * x5 (ix2 k j)) + x6 (ix1 j) := by
  rw [val_main_v45_apply, v42_eq, val_main_v44_apply, val_main_v43_apply]
  exact congrArg₂ (· + ·) rfl (congrArg x6 (funext fun a => by match a with | ⟨0, _⟩ => rfl))

/-- The second activation. -/
theorem v46_silu (i : S800000x128.Idx) :
    val_main_v46 (F := Ideal) x0 x1 x2 x3 x4 x5 x6 i = Cert.Spec.silu (val_main_v45 (F := Ideal) x0 x1 x2 x3 x4 x5 x6 i) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply]
  exact silu_spelt _

/-- The reference's edge messages are M of its gathered features, its squared distances and the row blocks of the
    first-layer matrix. -/
theorem msg_eq :
    val_main_v46 (F := Ideal) x0 x1 x2 x3 x4 x5 x6
      = Cert.Spec.edgeMArr (val_main_v28 (F := Ideal) x0 x2) (val_main_v35 (F := Ideal) x0 x2) (val_main_v21 (F := Ideal) x1 x2)
          (Cert.Spec.rowsA x3) (Cert.Spec.rowsB x3) (Cert.Spec.rowC x3) x4 x5 x6 := by
  funext i
  obtain ⟨e, j, rfl⟩ : ∃ (e : Fin 800000) (j : Fin 128), i = ix2 e j := ⟨i 0, i 1, eq_ix2 i⟩
  show val_main_v46 (F := Ideal) x0 x1 x2 x3 x4 x5 x6 (ix2 e j) = Cert.Spec.edgeM _ _ _ _ _ _ _ _ _ e j
  rw [v46_silu, v45_eq]
  rfl

/-! ## The edge weights -/

/-- Every index of an [800000, 1] array is (edge, 0). -/
theorem idx_800000x1 (i : S800000x1.Idx) : ∃ e : Fin 800000, i = ix2 e (0 : Fin 1) :=
  ⟨i 0, funext fun a => by
    match a with
    | ⟨0, _⟩ => rfl
    | ⟨1, _⟩ => exact Fin.ext (by have := idx2_lt1 i; show (i 1).val = 0; omega)⟩

/-- The contraction of the messages with the weight column. -/
theorem v61_eq (e : Fin 800000) :
    val_main_v61 (F := Ideal) x0 x1 x2 x3 x4 x5 x6 x11 (ix2 e (0 : Fin 1))
      = ∑ j : Fin 128, (val_main_v46 (F := Ideal) x0 x1 x2 x3 x4 x5 x6) (ix2 e j) * Cert.Spec.col0 x11 (ix1 j) := by
  rw [val_main_v61_apply]
  refine Finset.sum_congr rfl fun j _ => ?_
  exact congrArg₂ (· * ·) (congrArg _ (funext fun a => by match a with | ⟨0, _⟩ => rfl | ⟨1, _⟩ => rfl)) (congrArg x11 (funext fun a => by match a with | ⟨0, _⟩ => rfl | ⟨1, _⟩ => rfl))

/-- The weight layer before its activation. -/
theorem v64_eq (e : Fin 800000) :
    val_main_v64 (F := Ideal) x0 x1 x2 x3 x4 x5 x6 x11 x12 (ix2 e (0 : Fin 1))
      = (∑ j : Fin 128, (val_main_v46 (F := Ideal) x0 x1 x2 x3 x4 x5 x6) (ix2 e j) * Cert.Spec.col0 x11 (ix1 j)) + x12 (ix1 (0 : Fin 1)) := by
  rw [val_main_v64_apply, v61_eq, val_main_v63_apply, val_main_v62_apply]
  exact congrArg₂ (· + ·) rfl (congrArg x12 (funext fun a => by match a with | ⟨0, _⟩ => rfl))

/-- The weight activation. -/
theorem v65_silu (i : S800000x1.Idx) :
    val_main_v65 (F := Ideal) x0 x1 x2 x3 x4 x5 x6 x11 x12 i
      = Cert.Spec.silu (val_main_v64 (F := Ideal) x0 x1 x2 x3 x4 x5 x6 x11 x12 i) := by
  rw [val_main_v65_apply, val_main_call3_v5_apply, val_main_call3_v4_apply, val_main_call3_cst_0_apply,
    val_main_call3_v3_apply, val_main_call3_v2_apply, val_main_call3_cst_apply, val_main_call3_v1_apply,
    val_main_call3_v0_apply]
  exact silu_spelt _

/-- The reference's edge weights are w of its messages. -/
theorem wgt_eq :
    val_main_v65 (F := Ideal) x0 x1 x2 x3 x4 x5 x6 x11 x12
      = Cert.Spec.edgeWArr (val_main_v46 (F := Ideal) x0 x1 x2 x3 x4 x5 x6) (Cert.Spec.col0 x11) x12 := by
  funext i
  obtain ⟨e, rfl⟩ := idx_800000x1 i
  show val_main_v65 (F := Ideal) x0 x1 x2 x3 x4 x5 x6 x11 x12 (ix2 e (0 : Fin 1)) = Cert.Spec.edgeW _ _ _ e
  rw [v65_silu, v64_eq]
  rfl

/-! ## The node update -/

/-- The concatenated node row at a position below 128 is the node's own feature there. -/
theorem v50_A (n : Fin 50000) (l : Fin 128) :
    val_main_v50 (F := Ideal) x0 x1 x2 x3 x4 x5 x6 (ix2 n (⟨l.val, by omega⟩ : Fin 256)) = x0 (ix2 n l) := by
  unfold val_main_v50
  exact cat2_A _ _ _ n l

/-- The concatenated node row at a position `128 + l` is the aggregate at `l`. -/
theorem v50_B (n : Fin 50000) (l : Fin 128) :
    val_main_v50 (F := Ideal) x0 x1 x2 x3 x4 x5 x6 (ix2 n (⟨128 + l.val, by omega⟩ : Fin 256))
      = val_main_v49 (F := Ideal) x0 x1 x2 x3 x4 x5 x6 (ix2 n l) := by
  unfold val_main_v50
  exact cat2_B _ _ _ n l

/-- The node first-layer matrix at a row below 128 is its first row block. -/
theorem x7_A (n : Fin 50000) (k l : Fin 128) :
    x7 (ridx_main_v51 (ix2 n k) (⟨l.val, by omega⟩ : Fin 256)) = Cert.Spec.nrowsA x7 (ix2 l k) :=
  congrArg x7 (funext fun a => by match a with | ⟨0, _⟩ => rfl | ⟨1, _⟩ => rfl)

/-- The node first-layer matrix at a row `128 + l` is its second row block at `l`. -/
theorem x7_B (n : Fin 50000) (k l : Fin 128) :
    x7 (ridx_main_v51 (ix2 n k) (⟨128 + l.val, by omega⟩ : Fin 256)) = Cert.Spec.nrowsB x7 (ix2 l k) :=
  congrArg x7 (funext fun a => by match a with | ⟨0, _⟩ => rfl | ⟨1, _⟩ => rfl)

/-- The node first contraction: the 256-term sum against the whole matrix is the two blocks' sums. -/
theorem v51_eq (n : Fin 50000) (k : Fin 128) :
    val_main_v51 (F := Ideal) x0 x1 x2 x3 x4 x5 x6 x7 (ix2 n k)
      = (∑ l : Fin 128, x0 (ix2 n l) * Cert.Spec.nrowsA x7 (ix2 l k))
          + (∑ l : Fin 128, val_main_v49 (F := Ideal) x0 x1 x2 x3 x4 x5 x6 (ix2 n l) * Cert.Spec.nrowsB x7 (ix2 l k)) := by
  rw [val_main_v51_apply, sum256]
  refine congrArg₂ (· + ·) (Finset.sum_congr rfl fun l _ => ?_) (Finset.sum_congr rfl fun l _ => ?_)
  · exact congrArg₂ (· * ·)
      ((congrArg _ (show lidx_main_v51 (ix2 n k) (⟨l.val, by omega⟩ : Fin 256) = ix2 n (⟨l.val, by omega⟩ : Fin 256) from
        funext fun a => by match a with | ⟨0, _⟩ => rfl | ⟨1, _⟩ => rfl)).trans (v50_A x0 x1 x2 x3 x4 x5 x6 n l)) (x7_A x7 n k l)
  · exact congrArg₂ (· * ·)
      ((congrArg _ (show lidx_main_v51 (ix2 n k) (⟨128 + l.val, by omega⟩ : Fin 256) = ix2 n (⟨128 + l.val, by omega⟩ : Fin 256) from
        funext fun a => by match a with | ⟨0, _⟩ => rfl | ⟨1, _⟩ => rfl)).trans (v50_B x0 x1 x2 x3 x4 x5 x6 n l)) (x7_B x7 n k l)

/-- The first node layer before its activation. -/
theorem v54_eq (n : Fin 50000) (k : Fin 128) :
    val_main_v54 (F := Ideal) x0 x1 x2 x3 x4 x5 x6 x7 x8 (ix2 n k)
      = Cert.Spec.nodeH x0 (val_main_v49 (F := Ideal) x0 x1 x2 x3 x4 x5 x6)
          (Cert.Spec.nrowsA x7) (Cert.Spec.nrowsB x7) x8 n k := by
  rw [val_main_v54_apply, v51_eq, val_main_v53_apply, val_main_v52_apply]
  exact congrArg₂ (· + ·) rfl (congrArg x8 (funext fun a => by match a with | ⟨0, _⟩ => rfl))

/-- The node activation. -/
theorem v55_silu (i : S50000x128.Idx) :
    val_main_v55 (F := Ideal) x0 x1 x2 x3 x4 x5 x6 x7 x8 i
      = Cert.Spec.silu (val_main_v54 (F := Ideal) x0 x1 x2 x3 x4 x5 x6 x7 x8 i) := by
  rw [val_main_v55_apply, val_main_call2_v5_apply, val_main_call2_v4_apply, val_main_call2_cst_0_apply,
    val_main_call2_v3_apply, val_main_call2_v2_apply, val_main_call2_cst_apply, val_main_call2_v1_apply,
    val_main_call2_v0_apply]
  exact silu_spelt _

/-- The node second contraction. -/
theorem v56_eq (n : Fin 50000) (j : Fin 128) :
    val_main_v56 (F := Ideal) x0 x1 x2 x3 x4 x5 x6 x7 x8 x9 (ix2 n j)
      = ∑ k : Fin 128, Cert.Spec.silu (Cert.Spec.nodeH x0 (val_main_v49 (F := Ideal) x0 x1 x2 x3 x4 x5 x6)
          (Cert.Spec.nrowsA x7) (Cert.Spec.nrowsB x7) x8 n k) * x9 (ix2 k j) := by
  rw [val_main_v56_apply]
  refine Finset.sum_congr rfl fun k _ => ?_
  refine congrArg₂ (· * ·) ?_ (congrArg x9 (funext fun a => by match a with | ⟨0, _⟩ => rfl | ⟨1, _⟩ => rfl))
  rw [show lidx_main_v56 (ix2 n j) k = ix2 n k from funext fun a => by match a with | ⟨0, _⟩ => rfl | ⟨1, _⟩ => rfl, v55_silu, v54_eq]

/-- The node second layer. -/
theorem v59_eq (n : Fin 50000) (j : Fin 128) :
    val_main_v59 (F := Ideal) x0 x1 x2 x3 x4 x5 x6 x7 x8 x9 x10 (ix2 n j)
      = (∑ k : Fin 128, Cert.Spec.silu (Cert.Spec.nodeH x0 (val_main_v49 (F := Ideal) x0 x1 x2 x3 x4 x5 x6)
          (Cert.Spec.nrowsA x7) (Cert.Spec.nrowsB x7) x8 n k) * x9 (ix2 k j)) + x10 (ix1 j) := by
  rw [val_main_v59_apply, v56_eq, val_main_v58_apply, val_main_v57_apply]
  exact congrArg₂ (· + ·) rfl (congrArg x10 (funext fun a => by match a with | ⟨0, _⟩ => rfl))

/-- The reference's updated node features are the node update of x, its aggregate and the row blocks of the node
    first-layer matrix. -/
theorem node_eq :
    val_main_v60 (F := Ideal) x0 x1 x2 x3 x4 x5 x6 x7 x8 x9 x10
      = Cert.Spec.nodeOutArr x0 (val_main_v49 (F := Ideal) x0 x1 x2 x3 x4 x5 x6) (Cert.Spec.nrowsA x7) (Cert.Spec.nrowsB x7) x8 x9 x10 := by
  funext i
  obtain ⟨n, j, rfl⟩ : ∃ (n : Fin 50000) (j : Fin 128), i = ix2 n j := ⟨i 0, i 1, eq_ix2 i⟩
  show val_main_v60 (F := Ideal) x0 x1 x2 x3 x4 x5 x6 x7 x8 x9 x10 (ix2 n j) = Cert.Spec.nodeOut _ _ _ _ _ _ _ n j
  rw [val_main_v60_apply, v59_eq]
  rfl

end Cert.ReferenceIdeal.RefV

end
-- ==== Proof.Bridge.lean ====
/-
  The two idealized programs compute one function of the arguments.

  The host operations around the regions are the same operations in both programs (gathers of x and pos by the wrapped
  edge endpoints, the squared distance, the scatter-adds into the source nodes, rij / (√dij + ε)); the kernel cuts the
  weight matrices into row blocks by slices where the reference contracts against the whole matrices.  With the row
  blocks read as index maps, the kernel's regions and the reference's stages are the same Spec functions of the same
  operands, so the two node results and the two position results agree.
-/
import proofs.«110710_j11742440587289_1_alg».proof.Proof.KHost
import proofs.«110710_j11742440587289_1_alg».proof.Proof.RefVal
import proofs.«110710_j11742440587289_1_alg».proof.Proof.Spec

set_option maxRecDepth 16384

noncomputable section

namespace Cert.Bridge

open Idealize.ShloMosaic Idealize.ShloMosaic.TcCoe Idealize.SL.Sem
open Cert.KernelIdeal.HostV
open Cert.ReferenceIdeal Cert.ReferenceIdeal.Read

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-! ## The shared host operations -/

/-- x[row] is the same gather in both programs. -/
theorem hXR_eq : hXR (F := Ideal) x0 x2 = val_main_v28 (F := Ideal) x0 x2 := rfl
/-- x[col] likewise. -/
theorem hXC_eq : hXC (F := Ideal) x0 x2 = val_main_v35 (F := Ideal) x0 x2 := rfl
/-- The squared distance likewise. -/
theorem hDij_eq : hDij (F := Ideal) x1 x2 = val_main_v21 (F := Ideal) x1 x2 := rfl
/-- The aggregate of the reference's messages is the reference's aggregate: the same scatter-add into the source nodes. -/
theorem agg_eq : hAgg (F := Ideal) x2 (val_main_v46 (F := Ideal) x0 x1 x2 x3 x4 x5 x6) = val_main_v49 (F := Ideal) x0 x1 x2 x3 x4 x5 x6 := rfl
/-- The position update from the reference's edge weights is the reference's: the same chain of host operations. -/
theorem pos_eq : hPos (F := Ideal) x1 x2 (val_main_v65 (F := Ideal) x0 x1 x2 x3 x4 x5 x6 x11 x12)
    = val_main_v76 (F := Ideal) x0 x1 x2 x3 x4 x5 x6 x11 x12 := rfl

/-! ## The results -/

/-- The kernel program's edge messages are the reference's. -/
theorem msg_eq :
    Cert.Spec.edgeMArr (hXR (F := Ideal) x0 x2) (hXC (F := Ideal) x0 x2) (hDij (F := Ideal) x1 x2) (hWa x3) (hWb x3) (hWc x3) x4 x5 x6
      = val_main_v46 (F := Ideal) x0 x1 x2 x3 x4 x5 x6 := by
  rw [hWa_eq, hWb_eq, hWc_eq, hXR_eq, hXC_eq, hDij_eq]
  exact (Cert.ReferenceIdeal.RefV.msg_eq x0 x1 x2 x3 x4 x5 x6).symm

/-- The kernel program's node result is the reference's. -/
theorem out0_eq :
    Cert.Spec.nodeOutArr x0 (hAgg (F := Ideal) x2 (Cert.Spec.edgeMArr (hXR (F := Ideal) x0 x2) (hXC (F := Ideal) x0 x2) (hDij (F := Ideal) x1 x2) (hWa x3) (hWb x3) (hWc x3) x4 x5 x6))
        (hNa x7) (hNb x7) x8 x9 x10
      = val_main_v60 (F := Ideal) x0 x1 x2 x3 x4 x5 x6 x7 x8 x9 x10 := by
  rw [msg_eq, hNa_eq, hNb_eq, agg_eq]
  exact (Cert.ReferenceIdeal.RefV.node_eq x0 x1 x2 x3 x4 x5 x6 x7 x8 x9 x10).symm

/-- The kernel program's position result is the reference's. -/
theorem out1_eq :
    hPos (F := Ideal) x1 x2 (Cert.Spec.edgeWArr (Cert.Spec.edgeMArr (hXR (F := Ideal) x0 x2) (hXC (F := Ideal) x0 x2) (hDij (F := Ideal) x1 x2) (hWa x3) (hWb x3) (hWc x3) x4 x5 x6)
        (hCw x11) x12)
      = val_main_v76 (F := Ideal) x0 x1 x2 x3 x4 x5 x6 x11 x12 := by
  rw [msg_eq, hCw_eq, ← Cert.ReferenceIdeal.RefV.wgt_eq x0 x1 x2 x3 x4 x5 x6 x11 x12]
  exact pos_eq x0 x1 x2 x3 x4 x5 x6 x11 x12

end Cert.Bridge

end
-- ==== Proof.lean ====
/-
  The claim: the graph-network kernel program (an edge network and a node network as two pipelined regions among
  gathers, scatter-adds and the position update on the host) against its plain reference, over the extended reals.

  The three frames: the two kernel programs' frames are the generated certificates of their two-region runs; the
  reference's is its generated run with the results dropped.  Nothing was rewritten by the ideal pass, so the
  preservation claim is trivial.  The value claim: the kernel program's run ends with its two results at the last
  boundary's contents, which are the node update of x and the aggregate of the edge messages, and pos plus the
  scatter-add of rij / (√dij + ε) · w; the reference's run ends at the same functions of arguments that agree.
-/
import proofs.«110710_j11742440587289_1_alg».proof.Defs
import proofs.«110710_j11742440587289_1_alg».proof.Proof.Gen.Kernel
import proofs.«110710_j11742440587289_1_alg».proof.Proof.Gen.Kernel.Skeleton
import proofs.«110710_j11742440587289_1_alg».proof.Proof.Gen.Kernel.Launch
import proofs.«110710_j11742440587289_1_alg».proof.Proof.Gen.Kernel.Points
import proofs.«110710_j11742440587289_1_alg».proof.Proof.Gen.Kernel.Frame
import proofs.«110710_j11742440587289_1_alg».proof.Proof.Gen.KernelIdeal
import proofs.«110710_j11742440587289_1_alg».proof.Proof.Gen.KernelIdeal.Skeleton
import proofs.«110710_j11742440587289_1_alg».proof.Proof.Gen.KernelIdeal.Launch
import proofs.«110710_j11742440587289_1_alg».proof.Proof.Gen.KernelIdeal.Points
import proofs.«110710_j11742440587289_1_alg».proof.Proof.Gen.KernelIdeal.Frame
import proofs.«110710_j11742440587289_1_alg».proof.Proof.Gen.ReferenceIdeal
import proofs.«110710_j11742440587289_1_alg».proof.Proof.Gen.ReferenceIdeal.Run
import proofs.«110710_j11742440587289_1_alg».proof.Proof.Gen.ReferenceIdeal.Read
import proofs.«110710_j11742440587289_1_alg».proof.Proof.Gen.Pre_finite_inputs
import proofs.«110710_j11742440587289_1_alg».proof.Proof.KernelRun
import proofs.«110710_j11742440587289_1_alg».proof.Proof.KHost
import proofs.«110710_j11742440587289_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the thirteen arguments both programs end with the node result and the position result
    at one function of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v47),
    fun c => Cert.KernelIdeal.Gen.W5 m ρ c (Proc.devRef .tc Cert.KernelIdeal.main_v58),
    Cert.KernelIdeal.RunV.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    rw [Cert.ReferenceIdeal.Read.val_main_v60_eq, e0, e1, e2, e3, e4, e5, e6, e7, e8, e9, e10]
    exact ((Cert.KernelIdeal.HostV.out0 m ρ c).trans (Cert.Bridge.out0_eq _ _ _ _ _ _ _ _ _ _ _)).symm
  · obtain ⟨e0, e1, e2, e3, e4, e5, e6, e7, e8, e9, e10, e11, e12⟩ := hagree c
    rw [Cert.ReferenceIdeal.Read.val_main_v76_eq, e0, e1, e2, e3, e4, e5, e6, e11, e12]
    exact ((Cert.KernelIdeal.HostV.out1 m ρ c).trans (Cert.Bridge.out1_eq _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
